-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S256x256 .f32) (main_arg9 : FVec F S256 .f32) (main_arg10 : FVec F S256x1 .f32) (main_arg11 : FVec F S1 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x1 .f32 := Host.absf main_arg10
  let main_cst_16 : FVec F S_ .f32 := constant S_ .f32 0x7F800000#32
  let main_v45 : FVec F S256x1 .f32 := broadcastInDim S256x1 ![] bcast_S_S256x1 main_cst_16
  let main_v46 : IVec S256x1 1 := cmpf .olt main_v44 main_v45
  let main_c_17 : IVec S_ 1 := constantI S_ 1 1#1
  let main_v47 : IVec S_ 1 := (fun x v => Host.reduce IntOp.andi x v reducesTo_S256x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128x128 .f32) (main_arg6 : FVec F S128 .f32) (main_arg7 : FVec F S128x128 .f32) (main_arg8 : FVec F S256x256 .f32) (main_arg9 : FVec F S256 .f32) (main_arg10 : FVec F S256x1 .f32) (main_arg11 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S256x256 .f32) (main_arg9 : FVec F S256 .f32) (main_arg10 : FVec F S256x1 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S2000x128 : Shape := ⟨2, ![2000, 128]⟩
abbrev S1x128 : Shape := ⟨2, ![1, 128]⟩
abbrev S800000x256 : Shape := ⟨2, ![800000, 256]⟩
abbrev S4000x256 : Shape := ⟨2, ![4000, 256]⟩
abbrev S4000x1 : Shape := ⟨2, ![4000, 1]⟩
abbrev S1x256 : Shape := ⟨2, ![1, 256]⟩
abbrev S4000 : Shape := ⟨1, ![4000]⟩
abbrev S1x1 : Shape := ⟨2, ![1, 1]⟩

abbrev nBuf : Space → Nat
  | .hbm => 94
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S256x256, .f32⟩
  | .hbm, ⟨9, _⟩ => ⟨S256, .f32⟩
  | .hbm, ⟨10, _⟩ => ⟨S256x1, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S50000x128, .bf16⟩
  | .hbm, ⟨45, _⟩ => ⟨S50000x128, .bf16⟩
  | .hbm, ⟨46, _⟩ => ⟨S128x128, .bf16⟩
  | .hbm, ⟨47, _⟩ => ⟨S128x128, .bf16⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S50000x1, .f32⟩
  | .hbm, ⟨63, _⟩ => ⟨S50000x128, .f32⟩
  | .hbm, ⟨64, _⟩ => ⟨S50000x128, .f32⟩
  | .hbm, ⟨65, _⟩ => ⟨S50000x128, .bf16⟩
  | .hbm, ⟨66, _⟩ => ⟨S50000x128, .bf16⟩
  | .hbm, ⟨67, _⟩ => ⟨S128x128, .bf16⟩
  | .hbm, ⟨68, _⟩ => ⟨S128x128, .bf16⟩
  | .hbm, ⟨69, _⟩ => ⟨S50000x128, .f32⟩
  | .hbm, ⟨70, _⟩ => ⟨S50000x128, .bf16⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x128, .bf16⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x128, .bf16⟩
  | .hbm, ⟨89, _⟩ => ⟨S800000x256, .bf16⟩
  | .hbm, ⟨90, _⟩ => ⟨S256x256, .bf16⟩
  | .hbm, ⟨91, _⟩ => ⟨S256, .f32⟩
  | .hbm, ⟨92, _⟩ => ⟨S800000x1, .f32⟩
  | .hbm, ⟨93, _⟩ => ⟨S800000, .f32⟩
  | .local _ .vmem, ⟨0, _⟩ => ⟨S2000x128, .bf16⟩
  | .local _ .vmem, ⟨1, _⟩ => ⟨S2000x128, .bf16⟩
  | .local _ .vmem, ⟨2, _⟩ => ⟨S2000x128, .bf16⟩
  | .local _ .vmem, ⟨3, _⟩ => ⟨S2000x128, .bf16⟩
  | .local _ .vmem, ⟨4, _⟩ => ⟨S128x128, .bf16⟩
  | .local _ .vmem, ⟨5, _⟩ => ⟨S128, .f32⟩
  | .local _ .vmem, ⟨6, _⟩ => ⟨S128x128, .bf16⟩
  | .local _ .vmem, ⟨7, _⟩ => ⟨S2000x128, .f32⟩
  | .local _ .vmem, ⟨8, _⟩ => ⟨S2000x128, .f32⟩
  | .local _ .vmem, ⟨9, _⟩ => ⟨S2000x128, .bf16⟩
  | .local _ .vmem, ⟨10, _⟩ => ⟨S2000x128, .bf16⟩
  | .local _ .vmem, ⟨11, _⟩ => ⟨S2000x128, .bf16⟩
  | .local _ .vmem, ⟨12, _⟩ => ⟨S2000x128, .bf16⟩
  | .local _ .vmem, ⟨13, _⟩ => ⟨S128x128, .bf16⟩
  | .local _ .vmem, ⟨14, _⟩ => ⟨S128, .f32⟩
  | .local _ .vmem, ⟨15, _⟩ => ⟨S128x128, .bf16⟩
  | .local _ .vmem, ⟨16, _⟩ => ⟨S2000x128, .f32⟩
  | .local _ .vmem, ⟨17, _⟩ => ⟨S2000x128, .f32⟩
  | .local _ .vmem, ⟨18, _⟩ => ⟨S4000x256, .bf16⟩
  | .local _ .vmem, ⟨19, _⟩ => ⟨S4000x256, .bf16⟩
  | .local _ .vmem, ⟨20, _⟩ => ⟨S256x256, .bf16⟩
  | .local _ .vmem, ⟨21, _⟩ => ⟨S256, .f32⟩
  | .local _ .vmem, ⟨22, _⟩ => ⟨S256, .f32⟩
  | .local _ .vmem, ⟨23, _⟩ => ⟨S1, .f32⟩
  | .local _ .vmem, ⟨24, _⟩ => ⟨S4000x1, .f32⟩
  | .local _ .vmem, ⟨25, _⟩ => ⟨S4000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_8 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_10 : Ref sig .tc := ⟨.hbm, 80, rfl⟩
abbrev main_v56 : Ref sig .tc := ⟨.hbm, 81, rfl⟩
abbrev main_v57 : Ref sig .tc := ⟨.hbm, 82, rfl⟩
abbrev main_c_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  concatenates_S800000x128_S800000x128_S800000x256_d1 : Shape.Concatenates [S800000x128, S800000x128] S800000x256 1
  shapeCasts_S256x1_S256 : S256x1.ShapeCasts S256
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  shapeCasts_S256_S256 : S256.ShapeCasts S256
  reduces_S4000x256_S4000 : S4000x256.Reduces [1] S4000
  shapeCasts_S4000_S4000x1 : S4000.ShapeCasts S4000x1
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S800000x1_S800000 : S800000x1.ShapeCasts S800000
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S4000x256_S256x256_S4000x256_1_0_0_1_n_n_wf : DotDims.WF S4000x256 S256x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .bf16 = 32 ∨ (Rect.block (s := S50000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .bf16 = 32 ∨ (Rect.block (s := S50000x128) S2000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .bf16 = 32 ∨ (Rect.block (s := S50000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S800000x256.size a
  hwx2_0 : ∀ i : grid2.Coords, EltTy.bits .bf16 = 32 ∨ (Rect.block (s := S800000x256) S4000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1.size a ≤ S1.size a
  hwx2_4 : ∀ i : grid2.Coords, EltTy.bits .f32 = 32 ∨ (Rect.block (s := S1) S1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x1.size a ≤ S800000x1.size a
  hwx2_5 : ∀ i : grid2.Coords, EltTy.bits .f32 = 32 ∨ (Rect.block (s := S800000x1) S4000x1.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf

abbrev win0_0 : Pipeline.Window sig grid0 :=
  Pipeline.Window.ofSpec (Memref.whole main_v25) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v63) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S4000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S800000x256 : Shape := ⟨2, ![800000, 256]⟩
abbrev S1x256 : Shape := ⟨2, ![1, 256]⟩
abbrev S1x1 : Shape := ⟨2, ![1, 1]⟩

abbrev nBuf : Space → Nat
  | .hbm => 115
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S256x256, .f32⟩
  | .hbm, ⟨9, _⟩ => ⟨S256, .f32⟩
  | .hbm, ⟨10, _⟩ => ⟨S256x1, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S_, .f32⟩
  | .hbm, ⟨64, _⟩ => ⟨S800000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S50000x128, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x128, .f32⟩
  | .hbm, ⟨93, _⟩ => ⟨S_, .i32⟩
  | .hbm, ⟨94, _⟩ => ⟨S800000, .i32⟩
  | .hbm, ⟨95, _⟩ => ⟨S800000, .i1⟩
  | .hbm, ⟨96, _⟩ => ⟨S_, .i32⟩
  | .hbm, ⟨97, _⟩ => ⟨S800000, .i32⟩
  | .hbm, ⟨98, _⟩ => ⟨S800000, .i32⟩
  | .hbm, ⟨99, _⟩ => ⟨S800000, .i32⟩
  | .hbm, ⟨100, _⟩ => ⟨S800000x1, .i32⟩
  | .hbm, ⟨101, _⟩ => ⟨S800000x128, .f32⟩
  | .hbm, ⟨102, _⟩ => ⟨S800000x256, .f32⟩
  | .hbm, ⟨103, _⟩ => ⟨S800000x256, .f32⟩
  | .hbm, ⟨104, _⟩ => ⟨S1x256, .f32⟩
  | .hbm, ⟨105, _⟩ => ⟨S800000x256, .f32⟩
  | .hbm, ⟨106, _⟩ => ⟨S800000x256, .f32⟩
  | .hbm, ⟨107, _⟩ => ⟨S_, .f32⟩
  | .hbm, ⟨108, _⟩ => ⟨S800000x256, .f32⟩
  | .hbm, ⟨109, _⟩ => ⟨S800000x256, .f32⟩
  | .hbm, ⟨110, _⟩ => ⟨S800000x1, .f32⟩
  | .hbm, ⟨111, _⟩ => ⟨S1x1, .f32⟩
  | .hbm, ⟨112, _⟩ => ⟨S800000x1, .f32⟩
  | .hbm, ⟨113, _⟩ => ⟨S800000x1, .f32⟩
  | .hbm, ⟨114, _⟩ => ⟨S800000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call1_cst : Ref sig .tc := ⟨.hbm, 81, rfl⟩
abbrev main_call1_v0 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_12 : Ref sig .tc := ⟨.hbm, 93, rfl⟩
abbrev main_v63 : Ref sig .tc := ⟨.hbm, 94, rfl⟩
abbrev main_v64 : Ref sig .tc := ⟨.hbm, 95, rfl⟩
abbrev main_c_13 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_call2_cst : Ref sig .tc := ⟨.hbm, 107, rfl⟩
abbrev main_call2_v0 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S800000x128_S800000x128_S800000x256_d1 : Shape.Concatenates [S800000x128, S800000x128] S800000x256 1
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S800000 : S800000x1.ShapeCasts S800000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S800000x256_S256x256_S800000x256_1_0_0_1_n_n_wf : DotDims.WF S800000x256 S256x256 S800000x256 [1] [0] [0] [1] [] []
  dot_S800000x256_S256x1_S800000x1_1_0_0_1_n_n_wf : DotDims.WF S800000x256 S256x1 S800000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x256_S256x256_S800000x256_1_0_0_1_n_n : DotDims S800000x256 S256x256 S800000x256 where
  lhsContracting := [1]
  rhsContracting := [0]
  lhsNonContracting := [0]
  rhsNonContracting := [1]
  lhsBatch := []
  rhsBatch := []
  wf := dot_S800000x256_S256x256_S800000x256_1_0_0_1_n_n_wf
def dot_S800000x256_S256x1_S800000x1_1_0_0_1_n_n : DotDims S800000x256 S256x1 S800000x1 where
  lhsContracting := [1]
  rhsContracting := [0]
  lhsNonContracting := [0]
  rhsNonContracting := [1]
  lhsBatch := []
  rhsBatch := []
  wf := dot_S800000x256_S256x1_S800000x1_1_0_0_1_n_n_wf

class Facts : Prop extends Facts₀ where

variable [Facts]
-- ==== Proof.Spec.lean ====
/-
  THE NETWORK AS ONE FUNCTION OF ITS ARGUMENT ARRAYS, at the extended reals.

  A graph of 50000 nodes and 800000 directed edges (row 0 of the edge list: sources; row 1: destinations). A node
  number below zero counts from the end. Two graph layers, then a score per edge:

    degree(i)        = max(number of edges into i, 1)
    neighbourSum t i = Σ over edges e into i of row src(e) of t
    layer t          = max( (neighbourSum t / degree) · Wl + b + t · Wr, 0 )
    edgeFeatures h e = row src(e) of h  joined with  row dst(e) of h
    score f          = max(f · W3 + b3, 0) · W4 + b4

  out = score (edgeFeatures (layer (layer x))).  The looking-up of rows and the summing into destination rows are
  kept as the host's own operations: both programs apply the same ones to the same index arrays.

  meanT is the other arrangement of the mean: the neighbour sum times the reciprocal of the degree.
-/
import proofs.«136383_j28862180229417_1_alg».proof.Proof.Gen.ReferenceIdeal
import Idealize.ShloMosaic.PureOps.Ideal

noncomputable section

namespace Cert.Spec

open Idealize.ShloMosaic Cert.ReferenceIdeal Cert.ReferenceIdeal.Gen

/-- The sources of the edges. -/
def srcOf (ei : IVec S2x800000 32) : IVec S800000 32 :=
  shapeCast S800000 (extractStridedSlice S1x800000 ![0, 0] ei slices_S2x800000_S1x800000_0_0) shapeCasts_S1x800000_S800000

/-- The destinations of the edges. -/
def dstOf (ei : IVec S2x800000 32) : IVec S800000 32 :=
  shapeCast S800000 (extractStridedSlice S1x800000 ![1, 0] ei slices_S2x800000_S1x800000_1_0) shapeCasts_S1x800000_S800000

/-- Node numbers as the one-column index array of a row lookup; a negative number counts from the end. -/
def lookupIdx (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The rows of a node table at a vector of node numbers. -/
def rowsAt {φ : FTy} (t : FVec Ideal S50000x128 φ) (v : IVec S800000 32) : FVec Ideal S800000x128 φ :=
  Host.gather gather_S50000x128_S800000x1_S800000x128_1_0_n_n_0_1_1128 t (lookupIdx v)

/-- The destinations as the one-column index array of the summing into rows. -/
def dstCol (ei : IVec S2x800000 32) : IVec S800000x1 32 :=
  broadcastInDim S800000x1 ![0] bcast_S800000_S800000x1_0 (dstOf ei)

/-- Row i: the sum over the edges into i of the source's row. -/
def neighbourSum (t : FVec Ideal S50000x128 .f32) (ei : IVec S2x800000 32) : FVec Ideal S50000x128 .f32 :=
  Host.scatterAdd scatter_S50000x128_S800000x1_S800000x128_1_0_0_1
    (broadcastInDim S50000x128 ![] bcast_S_S50000x128 (constant S_ .f32 0x00000000#32)) (dstCol ei) (rowsAt t (srcOf ei))

/-- The number of edges into each node. -/
def inCount (ei : IVec S2x800000 32) : FVec Ideal S50000 .f32 :=
  Host.scatterAdd scatter_S50000_S800000x1_S800000_n_0_0_1
    (broadcastInDim S50000 ![] bcast_S_S50000 (constant S_ .f32 0x00000000#32)) (dstCol ei)
    (broadcastInDim S800000 ![] bcast_S_S800000 (constant S_ .f32 0x3F800000#32))

/-- The in-degree, raised to one where it is zero. -/
def degree (ei : IVec S2x800000 32) : FVec Ideal S50000 .f32 :=
  maximumf (inCount ei) (broadcastInDim S50000 ![] bcast_S_S50000 (constant S_ .f32 0x3F800000#32))

/-- A value per node, repeated along the 128 features. -/
def perNode (d : FVec Ideal S50000 .f32) : FVec Ideal S50000x128 .f32 :=
  broadcastInDim S50000x128 ![0, 1] bcast_S50000x1_S50000x128_0_1 (broadcastInDim S50000x1 ![0] bcast_S50000_S50000x1_0 d)

/-- The mean of the in-neighbours' rows, as a quotient by the degree. -/
def mean (t : FVec Ideal S50000x128 .f32) (ei : IVec S2x800000 32) : FVec Ideal S50000x128 .f32 :=
  Host.divf (neighbourSum t ei) (perNode (degree ei))

/-- The mean of the in-neighbours' rows, as a product with the reciprocal of the degree. -/
def meanT (t : FVec Ideal S50000x128 .f32) (ei : IVec S2x800000 32) : FVec Ideal S50000x128 .f32 :=
  mulf (neighbourSum t ei)
    (perNode (Host.divf (broadcastInDim S50000 ![] bcast_S_S50000 (constant S_ .f32 0x3F800000#32)) (degree ei)))

/-- One graph layer. -/
def layer (t : FVec Ideal S50000x128 .f32) (ei : IVec S2x800000 32) (wl : FVec Ideal S128x128 .f32)
    (b : FVec Ideal S128 .f32) (wr : FVec Ideal S128x128 .f32) : FVec Ideal S50000x128 .f32 :=
  maximumf
    (addf
      (addf (Host.dotGeneral dot_S50000x128_S128x128_S50000x128_1_0_0_1_n_n none (mean t ei) wl)
        (broadcastInDim S50000x128 ![0, 1] bcast_S1x128_S50000x128_0_1 (broadcastInDim S1x128 ![1] bcast_S128_S1x128_1 b)))
      (Host.dotGeneral dot_S50000x128_S128x128_S50000x128_1_0_0_1_n_n none t wr))
    (broadcastInDim S50000x128 ![] bcast_S_S50000x128 (constant S_ .f32 0x00000000#32))

/-- An edge's features: its source's row joined with its destination's row. -/
def edgeFeatures {φ : FTy} (h : FVec Ideal S50000x128 φ) (ei : IVec S2x800000 32) : FVec Ideal S800000x256 φ :=
  concatenate S800000x256 1 [⟨S800000x128, rowsAt h (srcOf ei)⟩, ⟨S800000x128, rowsAt h (dstOf ei)⟩]
    concatenates_S800000x128_S800000x128_S800000x256_d1

/-- The score of every edge from the edge features. -/
def score (f : FVec Ideal S800000x256 .f32) (w3 : FVec Ideal S256x256 .f32) (b3 : FVec Ideal S256 .f32)
    (w4 : FVec Ideal S256x1 .f32) (b4 : FVec Ideal S1 .f32) : FVec Ideal S800000 .f32 :=
  shapeCast S800000
    (addf
      (Host.dotGeneral dot_S800000x256_S256x1_S800000x1_1_0_0_1_n_n none
        (maximumf
          (addf (Host.dotGeneral dot_S800000x256_S256x256_S800000x256_1_0_0_1_n_n none f w3)
            (broadcastInDim S800000x256 ![0, 1] bcast_S1x256_S800000x256_0_1 (broadcastInDim S1x256 ![1] bcast_S256_S1x256_1 b3)))
          (broadcastInDim S800000x256 ![] bcast_S_S800000x256 (constant S_ .f32 0x00000000#32)))
        w4)
      (broadcastInDim S800000x1 ![0, 1] bcast_S1x1_S800000x1_0_1 (broadcastInDim S1x1 ![1] bcast_S1_S1x1_1 b4)))
    shapeCasts_S800000x1_S800000

/-- The whole network. -/
def out (x : FVec Ideal S50000x128 .f32) (ei : IVec S2x800000 32)
    (w1l : FVec Ideal S128x128 .f32) (b1l : FVec Ideal S128 .f32) (w1r : FVec Ideal S128x128 .f32)
    (w2l : FVec Ideal S128x128 .f32) (b2l : FVec Ideal S128 .f32) (w2r : FVec Ideal S128x128 .f32)
    (w3 : FVec Ideal S256x256 .f32) (b3 : FVec Ideal S256 .f32) (w4 : FVec Ideal S256x1 .f32) (b4 : FVec Ideal S1 .f32) :
    FVec Ideal S800000 .f32 :=
  score (edgeFeatures (layer (layer x ei w1l b1l w1r) ei w2l b2l w2r) ei) w3 b3 w4 b4

end Cert.Spec

end
-- ==== Proof.RefRun.lean ====
/-
  The reference program's run, read back: every execution of the reference ends with its result buffer at the
  composed term of its host operations applied to the argument arrays, the arguments unchanged. That term is the
  network of Spec.lean, `Cert.Spec.out`, applied to the twelve argument arrays: the two are the same composition of the
  same host operations, the network's stages only being named.
-/
import proofs.«136383_j28862180229417_1_alg».proof.Proof.Gen.ReferenceIdeal.Run
import proofs.«136383_j28862180229417_1_alg».proof.Proof.Spec

noncomputable section

namespace Cert.ReferenceIdeal.RefValue

open Cert.ReferenceIdeal Cert.ReferenceIdeal.Gen Cert.ReferenceIdeal.Value
open Idealize.ShloMosaic Idealize.ShloMosaic.TcCoe Idealize.SL.Sem

set_option maxRecDepth 8192 in
/-- The reference's result is the network applied to its arguments. -/
theorem result_eq (m : (ℓ : Loc nD τ sig) → Buf (Elt Ideal) ℓ) (c : Dev nD) :
    res_main_v80 (F := Ideal) m c
      = Cert.Spec.out
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11)) := by
  unfold res_main_v80
  rfl

end Cert.ReferenceIdeal.RefValue

end
-- ==== Proof.Tiled.lean ====
/-
  The two dense stages of the network, each as ONE function of whole arrays, entry by entry, at the extended reals.

  * layerT: a node's new row from its mean row a(i, ·) and its own row x(i, ·):
        (i, j) ↦ max( (Σ_k a(i, k) · wl(k, j) + b(j)) + Σ_k x(i, k) · wr(k, j), 0 ).
  * scoreT: an edge's score from its feature row f(e, ·):
        (e, 0) ↦ Σ_j max( Σ_k f(e, k) · w3(k, j) + b3(j), 0 ) · w4(j)  +  b4(0).

  Each reads only row i (row e) of its row arrays, so a block of consecutive rows of the result is the same function
  of the matching block of rows.
-/
import Idealize.ShloMosaic.PureOps.Ideal
import Idealize.ShloMosaic.Lib.ValueIdx

noncomputable section

open scoped BigOperators

namespace Cert.Tiled

open Idealize.ShloMosaic Idealize.ShloMosaic.ValueIdx

/-- Entry (i, j) of a graph layer over N nodes with K input and M output features. -/
def layerEntry {N K M : Nat} {φa φx φl φr : FTy} (a : FVec Ideal ⟨2, ![N, K]⟩ φa) (x : FVec Ideal ⟨2, ![N, K]⟩ φx)
    (wl : FVec Ideal ⟨2, ![K, M]⟩ φl) (b : FVec Ideal ⟨1, ![M]⟩ .f32) (wr : FVec Ideal ⟨2, ![K, M]⟩ φr)
    (i : Fin N) (j : Fin M) : EReal :=
  max ((∑ k : Fin K, a (ix2 i k) * wl (ix2 k j) + b (ix1 j)) + ∑ k : Fin K, x (ix2 i k) * wr (ix2 k j))
    (Ideal.ofBits .f32 0x00000000#32)

/-- The graph layer as one array. -/
def layerT {N K M : Nat} {φa φx φl φr : FTy} (a : FVec Ideal ⟨2, ![N, K]⟩ φa) (x : FVec Ideal ⟨2, ![N, K]⟩ φx)
    (wl : FVec Ideal ⟨2, ![K, M]⟩ φl) (b : FVec Ideal ⟨1, ![M]⟩ .f32) (wr : FVec Ideal ⟨2, ![K, M]⟩ φr) :
    FVec Ideal ⟨2, ![N, M]⟩ .f32 := fun i => layerEntry a x wl b wr (i 0) (i 1)

/-- The score of edge e. -/
def scoreEntry {E K M : Nat} {φf φw : FTy} (f : FVec Ideal ⟨2, ![E, K]⟩ φf) (w3 : FVec Ideal ⟨2, ![K, M]⟩ φw)
    (b3 w4 : FVec Ideal ⟨1, ![M]⟩ .f32) (b4 : FVec Ideal ⟨1, ![1]⟩ .f32) (e : Fin E) : EReal :=
  (∑ j : Fin M, max (∑ k : Fin K, f (ix2 e k) * w3 (ix2 k j) + b3 (ix1 j)) (Ideal.ofBits .f32 0x00000000#32) * w4 (ix1 j))
    + b4 (ix1 (0 : Fin 1))

/-- The edge scores as one column. -/
def scoreT {E K M : Nat} {φf φw : FTy} (f : FVec Ideal ⟨2, ![E, K]⟩ φf) (w3 : FVec Ideal ⟨2, ![K, M]⟩ φw)
    (b3 w4 : FVec Ideal ⟨1, ![M]⟩ .f32) (b4 : FVec Ideal ⟨1, ![1]⟩ .f32) : FVec Ideal ⟨2, ![E, 1]⟩ .f32 :=
  fun i => scoreEntry f w3 b3 w4 b4 (i 0)

end Cert.Tiled

end
-- ==== Proof.LibBlocks.lean ====
/-
  ROW BLOCKS OF A TWO-AXIS ARRAY, AND TWO BLOCK BODIES READ AT ONE ELEMENT.

  An array [N, b] is worked in blocks of n consecutive rows: block t holds rows n t … n t + n - 1, so row r lies in
  block r / n at local row r - n (r / n) (row_in_block). Two bodies of such a block, each set beside the whole-array
  operation it is a block of, at the extended reals:

  * bias and rectifier: element (p, q) of max(block + bias row, 0) is max(block (p, q) + bias (0, q), 0), and element
    (r, q) of max(array + bias row broadcast down the rows, 0) is max(array (r, q) + bias (0, q), 0): equal when block
    element (p, q) is array element (r, q) (biasRelu_apply);
  * matrix product: element (p, q) of a block [n, K] times a matrix [K, b], accumulated from zero, is the sum over k of
    block (p, k) matrix (k, q), and element (r, q) of the host's product of the array [N, K] with the matrix is the sum
    over k of array (r, k) matrix (k, q): equal when block row p is array row r (matmul_plain_apply,
    dotGeneral_plain_apply, matmul_eq_dotGeneral_apply). A change of float format on the way in is the identity here.

  Generic in the extents; a program's dimension numbers enter through an equation with the library's plain
  rows-by-columns record.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

/-! ## Rows in blocks -/

/-- Row r of nb blocks of bs rows each lies in block r / bs, between that block's first row and its last. -/
theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

/-- The zero offsets of a two-axis block, as the constant function. -/
theorem off2_zero : (![0, 0] : Fin 2 → Nat) = fun _ => 0 := funext fun a => by fin_cases a <;> rfl

/-! ## Bias and rectifier -/

/-- Element (p, q) of max(block + bias row, 0) against element (r, q) of max(array + bias row, 0), the bias row
    broadcast down the rows on both sides: equal when block element (p, q) is array element (r, q) and the two bias
    rows are the same. -/
theorem biasRelu_apply {n N b : Nat}
    (hc0 : (⟨2, ![n, b]⟩ : Shape).ShapeCasts ⟨2, ![n, b]⟩) (hc1 : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    maximumf (addf (shapeCast ⟨2, ![n, b]⟩ x0 hc0) (broadcastTo ⟨2, ![n, b]⟩ (shapeCast ⟨2, ![1, b]⟩ x1 hc1) hb))
        (broadcast ⟨2, ![n, b]⟩ (Scalar.ofBits (F := Ideal) .f32 0x00000000#32)) (ix2 p q)
      = maximumf (addf a (broadcastInDim ⟨2, ![N, b]⟩ ![0, 1] hbd b2))
        (broadcastInDim ⟨2, ![N, b]⟩ ![] hz (constant (F := Ideal) ⟨0, ![]⟩ .f32 0x00000000#32)) (ix2 r q) := by
  subst h1
  rw [maximumf_apply, maximumf_apply, addf_apply, addf_apply, shapeCast_self, shapeCast_self,
    broadcastTo_apply x1 hb (ix2 p q) (ix2 (0 : Fin 1) q) (fun a => by
      match a with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![] hz (constant (F := Ideal) ⟨0, ![]⟩ .f32 0x00000000#32) (ix2 r q) ix0 (fun a => a.elim0),
    h0]
  rfl

/-! ## The matrix product -/

section Plain

variable {M K N : Nat}

/-- In a rows-by-columns product the left operand is read at the result's row and the contraction position … -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

/-- … and the right operand at the contraction position and the result's column. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The matrix unit's product into a zero accumulator, at element (p, q): the sum over k of left (p, k) right (k, q). -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product at element (p, q): the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

/-- Element (p, q) of a block [n, K] times a matrix [K, b] on the matrix unit, both narrowed on the way in and
    accumulated from zero, against element (r, q) of the host's product of an array [N, K] with a matrix: equal when
    block row p is array row r and the matrices are the same. -/
theorem matmul_eq_dotGeneral_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc0 : (⟨2, ![n, K]⟩ : Shape).ShapeCasts ⟨2, ![n, K]⟩) (hc1 : (⟨2, ![K, b]⟩ : Shape).ShapeCasts ⟨2, ![K, b]⟩)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 (shapeCast ⟨2, ![n, K]⟩ x0 hc0) hlt) (truncf .bf16 (shapeCast ⟨2, ![K, b]⟩ x1 hc1) hlt)
        (constant ⟨2, ![n, b]⟩ .f32 0x00000000#32) (ix2 p q)
      = Host.dotGeneral dr none h w (ix2 r q) := by
  subst h1
  rw [shapeCast_self, shapeCast_self]
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

end Cert.LibBlocks

end
-- ==== Proof.Region0.lean ====
/-
  ONE CALL OF THE GRAPH-LAYER KERNEL, READ AS ONE ARRAY.

  The call works through 50000 node rows in 25 blocks of 2000 consecutive rows. At block t it holds rows
  2000 t … 2000 t + 1999 of the mean-row array a and of the node-row array x, together with the whole weight matrices
  wl, wr and the whole bias vector b, and it writes rows 2000 t … 2000 t + 1999 of the result. For local row p and
  column q it computes
        max( (Σ_k a_blk(p, k) · wl(k, q) + b(q)) + Σ_k x_blk(p, k) · wr(k, q), 0 ):
  two matrix products accumulated from zero, the bias vector laid out as one row and repeated down the rows, the
  rectifier. A change of float format is the identity on the extended reals, so nothing else happens to the numbers.

  That value depends on row p of the two row blocks only, and local row p of block t is row 2000 t + p of the arrays.
  So the block written at t is rows 2000 t … 2000 t + 1999 of ONE function of the five whole arrays, the layer
  (i, j) ↦ max( (Σ_k a(i, k) · wl(k, j) + b(j)) + Σ_k x(i, k) · wr(k, j), 0 ). Row r of the result lies in block r / 2000,
  so the 25 blocks cover the result, and after the call the result array is that layer of the arrays the call found.
-/
import proofs.«136383_j28862180229417_1_alg».proof.Proof.Gen.KernelIdeal.Frame
import proofs.«136383_j28862180229417_1_alg».proof.Proof.Tiled
import proofs.«136383_j28862180229417_1_alg».proof.Proof.LibBlocks

noncomputable section

open scoped BigOperators

namespace Cert.KernelIdeal.Regions

open Cert.KernelIdeal Cert.KernelIdeal.Gen Idealize.ShloMosaic Idealize.ShloMosaic.TcCoe Idealize.ShloMosaic.ValueIdx

/-! ## The block body at one entry -/

/-- The body's two products are plain rows-by-columns products of a [2000, 128] block with a [128, 128] matrix. -/
theorem sage0_dims_plain : dot_S2000x128_S128x128_S2000x128_1_0_0_1_n_n = DotDims.plain 2000 128 128 := rfl

/-- The zero offset of a one-axis vector, as the constant function. -/
theorem sage0_off1_zero : (![0] : Fin 1 → Nat) = fun _ => 0 := funext fun a => by fin_cases a; rfl

/-- The bias vector laid out as a 1 x 128 row and repeated down the 2000 rows, at entry (p, q): the vector's entry q. -/
theorem sage0_bias_entry (b : FVec Ideal S128 .f32) (p : Fin 2000) (q : Fin 128) :
    broadcastTo S2000x128 (shapeCast S1x128 b shapeCasts_S128_S1x128) broadcasts_S1x128_S2000x128 (ix2 p q) = b (ix1 q) := by
  refine (broadcastTo_apply _ broadcasts_S1x128_S2000x128 (ix2 p q) (ix2 (0 : Fin 1) q) (fun a => ?_)).trans ?_
  · match a with
    | ⟨0, _⟩ => rfl
    | ⟨1, _⟩ => rfl
  · refine (shapeCast_addUnit_apply ![128] b shapeCasts_S128_S1x128 (ix2 (0 : Fin 1) q)).trans (congrArg b ?_)
    funext a
    match a with
    | ⟨0, _⟩ => rfl

/-- Entry (p, q) of what the body stores, from its five loaded blocks: the layer's entry (p, q) of those blocks.
    Each product into the zero accumulator is the sum over k of left (p, k) · right (k, q); the sums, the bias entry and
    the rectifier are then the layer's, term for term. -/
theorem sage0_pay_entry (x0 x1 : FVec Ideal S2000x128 .bf16) (x2 x4 : FVec Ideal S128x128 .bf16) (x3 : FVec Ideal S128 .f32)
    (p : Fin 2000) (q : Fin 128) :
    k0_pay1 (F := Ideal) x0 x1 x2 x4 x3 (ix2 p q)
      = Cert.Tiled.layerEntry (φa := .bf16) (φx := .bf16) (φl := .bf16) (φr := .bf16) x0 x1 x2 x3 x4 p q := by
  have e0 : matmul (F := Ideal) dot_S2000x128_S128x128_S2000x128_1_0_0_1_n_n none x0 x2
        (constant (F := Ideal) S2000x128 .f32 0x00000000#32) (ix2 p q)
      = ∑ k : Fin 128, x0 (ix2 p k) * x2 (ix2 k q) :=
    Cert.LibBlocks.matmul_plain_apply _ sage0_dims_plain none x0 x2 p q
  have e1 : matmul (F := Ideal) dot_S2000x128_S128x128_S2000x128_1_0_0_1_n_n none x1 x4
        (constant (F := Ideal) S2000x128 .f32 0x00000000#32) (ix2 p q)
      = ∑ k : Fin 128, x1 (ix2 p k) * x4 (ix2 k q) :=
    Cert.LibBlocks.matmul_plain_apply _ sage0_dims_plain none x1 x4 p q
  unfold k0_pay1 Cert.Tiled.layerEntry
  rw [maximumf_apply, addf_apply, addf_apply, shapeCast_self, shapeCast_self, shapeCast_self, shapeCast_self,
    e0, e1, sage0_bias_entry, broadcast_apply]
  rfl

/-- The same at any index j of the block, against whole arrays: if local row p of the two row blocks is row r p of the
    arrays A and X, and the weights and the bias are the whole arrays WL, WR and B, then the stored block's entry j is
    the layer of the whole arrays at row r (j 0), column j 1. The layer reads its row arrays in that one row only. -/
theorem sage0_block_eq (x0 x1 : FVec Ideal S2000x128 .bf16) (x2 x4 : FVec Ideal S128x128 .bf16) (x3 : FVec Ideal S128 .f32)
    (A X : FVec Ideal S50000x128 .bf16) (WL WR : FVec Ideal S128x128 .bf16) (B : FVec Ideal S128 .f32)
    (r : Fin 2000 → Fin 50000)
    (h0 : ∀ p k, x0 (ix2 p k) = A (ix2 (r p) k)) (h1 : ∀ p k, x1 (ix2 p k) = X (ix2 (r p) k))
    (h2 : x2 = WL) (h3 : x3 = B) (h4 : x4 = WR) (j : S2000x128.Idx) :
    k0_pay1 (F := Ideal) x0 x1 x2 x4 x3 j = Cert.Tiled.layerEntry A X WL B WR (r (j 0)) (j 1) := by
  subst h2 h3 h4
  obtain ⟨p, q, rfl⟩ : ∃ (p : Fin 2000) (q : Fin 128), j = ix2 p q := ⟨j 0, j 1, eq_ix2 j⟩
  rw [sage0_pay_entry]
  show Cert.Tiled.layerEntry x0 x1 x2 x3 x4 p q = Cert.Tiled.layerEntry A X x2 x3 x4 (r p) q
  unfold Cert.Tiled.layerEntry
  simp only [h0, h1]

/-! ## The blocks the call holds at point t -/

variable (V : (c : Dev nD) → (b : Ref sig .tc) → Buf (Elt Ideal) ((c : Thread nD τ).loc b))

/-- The block indices at point t, decided once over the 25 points: the two row arrays and the result are at row block
    t, column block 0; the weight matrices and the bias are at block 0 on every axis. -/
theorem sage0_idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Local row p of the mean-row block at t is row 2000 t + p of the mean-row array: a block's coordinate is the
    block index times the block size plus the coordinate inside the block. -/
theorem sage0_rows_a (c : Dev nD) (t : Fin cfg0.N) (p : Fin 2000) (k : Fin 128) (r : Fin 50000)
    (hr : r.val = t.val * 2000 + p.val) :
    (iblk0 V c 0 t : FVec Ideal S2000x128 .bf16) (ix2 p k) = (V c main_v25 : FVec Ideal S50000x128 .bf16) (ix2 r k) := by
  obtain ⟨e0, e1, -⟩ := sage0_idx_facts t
  show V c main_v25 (((cfg0.win 0).blk t).view.emb (ix2 p k)) = V c main_v25 (ix2 r k)
  refine congrArg (V c main_v25) (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- Local row p of the node-row block at t is row 2000 t + p of the node-row array. -/
theorem sage0_rows_x (c : Dev nD) (t : Fin cfg0.N) (p : Fin 2000) (k : Fin 128) (r : Fin 50000)
    (hr : r.val = t.val * 2000 + p.val) :
    (iblk0 V c 1 t : FVec Ideal S2000x128 .bf16) (ix2 p k) = (V c main_v26 : FVec Ideal S50000x128 .bf16) (ix2 r k) := by
  obtain ⟨-, -, e0, e1, -⟩ := sage0_idx_facts t
  show V c main_v26 (((cfg0.win 1).blk t).view.emb (ix2 p k)) = V c main_v26 (ix2 r k)
  refine congrArg (V c main_v26) (funext fun a => Fin.ext ?_)
  match a with
  | ⟨0, _⟩ => show win0_1.index t (0 : Fin 2) * 2000 + 1 * p.val = r.val; rw [e0, hr]; omega
  | ⟨1, _⟩ => show win0_1.index t (1 : Fin 2) * 128 + 1 * k.val = k.val; rw [e1]; omega

/-- The left weight block at every point is the whole left weight matrix (block 0 of an array one block large). -/
theorem sage0_whole_wl (c : Dev nD) (t : Fin cfg0.N) : (iblk0 V c 2 t : FVec Ideal S128x128 .bf16) = V c main_v27 := by
  obtain ⟨-, -, -, -, e0, e1, -⟩ := sage0_idx_facts t
  funext y
  show V c main_v27 (((cfg0.win 2).blk t).view.emb y) = V c main_v27 y
  refine congrArg (V c main_v27) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The bias block at every point is the whole bias vector. -/
theorem sage0_whole_b (c : Dev nD) (t : Fin cfg0.N) : (iblk0 V c 3 t : FVec Ideal S128 .f32) = V c main_arg3 := by
  obtain ⟨-, -, -, -, -, -, e0, -⟩ := sage0_idx_facts t
  funext y
  show V c main_arg3 (((cfg0.win 3).blk t).view.emb y) = V c main_arg3 y
  refine congrArg (V c main_arg3) (funext fun a => Fin.ext ?_)
  match a with
  | ⟨0, _⟩ => show win0_3.index t (0 : Fin 1) * 128 + 1 * (y 0).val = (y 0).val; rw [e0]; omega

/-- The right weight block at every point is the whole right weight matrix. -/
theorem sage0_whole_wr (c : Dev nD) (t : Fin cfg0.N) : (iblk0 V c 4 t : FVec Ideal S128x128 .bf16) = V c main_v28 := by
  obtain ⟨-, -, -, -, -, -, -, e0, e1, -⟩ := sage0_idx_facts t
  funext y
  show V c main_v28 (((cfg0.win 4).blk t).view.emb y) = V c main_v28 y
  refine congrArg (V c main_v28) (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-! ## From the blocks to the array -/

/-- WHAT POINT t WRITES BACK is rows 2000 t … 2000 t + 1999 of the layer of the five whole arrays: the body's one
    store covers its block, its loads read the whole blocks it holds, and entry (p, q) of the stored block is the
    layer at row 2000 t + p, column q, which is where the result's block at t puts it. -/
theorem sage0_flushed_eq (c : Dev nD) (t : Fin cfg0.N) :
    (dat0 (F := Ideal) V c).flushed 5 t
      = ((cfg0.win 5).blk t).view.read (Elt Ideal) (Cert.Tiled.layerT (φa := .bf16) (φx := .bf16) (φl := .bf16) (φr := .bf16) (V c main_v25) (V c main_v26) (V c main_v27) (V c main_arg3) (V c main_v28)) := by
  have hN : grid0.N = 25 := N_0
  have ht : t.val < 25 := hN ▸ t.isLt
  show (cfg0.win 5).cut (grid0.coords t) ((dat0 (F := Ideal) V c).after 5 t) = _
  rw [after0_5]
  unfold out0_5
  rw [View.canon_unit_zero Cert.LibBlocks.off2_zero]
  simp only [View.ld_unit_zero (S := S2000x128) Cert.LibBlocks.off2_zero,
    View.ld_unit_zero (S := S128x128) Cert.LibBlocks.off2_zero, View.ld_unit_zero (S := S128) sage0_off1_zero]
  obtain ⟨-, -, -, -, -, -, -, -, -, e0, e1⟩ := sage0_idx_facts t
  funext j
  have hj0 : (j 0).val < 2000 := (j 0).isLt
  have hj1 : (j 1).val < 128 := (j 1).isLt
  refine (sage0_block_eq (iblk0 V c 0 t) (iblk0 V c 1 t) (iblk0 V c 2 t) (iblk0 V c 4 t) (iblk0 V c 3 t)
    (V c main_v25) (V c main_v26) (V c main_v27) (V c main_v28) (V c main_arg3)
    (fun p => ⟨t.val * 2000 + p.val, by have := p.isLt; omega⟩)
    (fun p k => sage0_rows_a V c t p k _ rfl) (fun p k => sage0_rows_x V c t p k _ rfl)
    (sage0_whole_wl V c t) (sage0_whole_b V c t) (sage0_whole_wr V c t) (fun a => ⟨(j a).val, (j a).isLt⟩)).trans ?_
  show _ = Cert.Tiled.layerEntry (φa := .bf16) (φx := .bf16) (φl := .bf16) (φr := .bf16) (V c main_v25) (V c main_v26) (V c main_v27) (V c main_arg3) (V c main_v28)
    ((((cfg0.win 5).blk t).view.emb j) 0) ((((cfg0.win 5).blk t).view.emb j) 1)
  refine congrArg₂ (Cert.Tiled.layerEntry (φa := .bf16) (φx := .bf16) (φl := .bf16) (φr := .bf16) (V c main_v25) (V c main_v26) (V c main_v27) (V c main_arg3) (V c main_v28)) (Fin.ext ?_) (Fin.ext ?_)
  · show t.val * 2000 + (j 0).val = win0_5.index t (0 : Fin 2) * 2000 + 1 * (j 0).val
    rw [e0]; omega
  · show (j 1).val = win0_5.index t (1 : Fin 2) * 128 + 1 * (j 1).val
    rw [e1]; omega

/-- An index of the result is in point t's block iff each coordinate is in the block's range on its axis. -/
theorem sage0_mem_blk (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v29).slice (win0_5.rect t)).set ↔ _
  rw [View.set_slice_whole, Rect.mem_set_unit]
  exact Iff.rfl

/-- Every index of the result is written back by some point: row r by point r / 2000. -/
theorem sage0_cover (i : S50000x128.Idx) :
    ∃ t : Fin cfg0.N, (cfg0.win 5).flush t = true ∧ i ∈ ((cfg0.win 5).blk t).view.set := by
  have hN : grid0.N = 25 := N_0
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by show (i 0).val / 2000 < grid0.N; rw [hN]; omega⟩, rfl⟩
  obtain ⟨-, -, -, -, -, -, -, -, -, e0, e1⟩ := sage0_idx_facts t
  refine ⟨t, flush0_5 t, ?_⟩
  rw [sage0_mem_blk]
  intro a
  match a with
  | ⟨0, _⟩ =>
    show win0_5.index t (0 : Fin 2) * 2000 ≤ (i 0).val ∧ (i 0).val < win0_5.index t (0 : Fin 2) * 2000 + 2000
    rw [e0, ht]; omega
  | ⟨1, _⟩ =>
    show win0_5.index t (1 : Fin 2) * 128 ≤ (i 1).val ∧ (i 1).val < win0_5.index t (1 : Fin 2) * 128 + 128
    rw [e1]; omega

/-- THE RESULT ARRAY after the call: the layer of the five operand arrays as the call found them. Every point writes
    back the matching rows of that one function, and the points' blocks cover the array. -/
theorem region0_array (c : Dev nD) :
    (dat0 (F := Ideal) V c).arrAt 5 cfg0.N
      = Cert.Tiled.layerT (φa := .bf16) (φx := .bf16) (φl := .bf16) (φr := .bf16) (V c main_v25) (V c main_v26) (V c main_v27) (V c main_arg3) (V c main_v28) :=
  (dat0 (F := Ideal) V c).arrAt_eq_of_cover 5 _ (fun t _ => sage0_flushed_eq V c t) sage0_cover

end Cert.KernelIdeal.Regions

end
-- ==== Proof.Region1.lean ====
/-
  ONE CALL OF THE GRAPH-LAYER KERNEL, READ AS ONE ARRAY.

  The call works through 50000 node rows in 25 blocks of 2000 consecutive rows. At block t it holds rows
  2000 t … 2000 t + 1999 of the mean-row array a and of the node-row array x, together with the whole weight matrices
  wl, wr and the whole bias vector b, and it writes rows 2000 t … 2000 t + 1999 of the result. For local row p and
  column q it computes
        max( (Σ_k a_blk(p, k) · wl(k, q) + b(q)) + Σ_k x_blk(p, k) · wr(k, q), 0 ):
  two matrix products accumulated from zero, the bias vector laid out as one row and repeated down the rows, the
  rectifier. A change of float format is the identity on the extended reals, so nothing else happens to the numbers.

  That value depends on row p of the two row blocks only, and local row p of block t is row 2000 t + p of the arrays.
  So the block written at t is rows 2000 t … 2000 t + 1999 of ONE function of the five whole arrays, the layer
  (i, j) ↦ max( (Σ_k a(i, k) · wl(k, j) + b(j)) + Σ_k x(i, k) · wr(k, j), 0 ). Row r of the result lies in block r / 2000,
  so the 25 blocks cover the result, and after the call the result array is that layer of the arrays the call found.
-/
import proofs.«136383_j28862180229417_1_alg».proof.Proof.Gen.KernelIdeal.Frame
import proofs.«136383_j28862180229417_1_alg».proof.Proof.Tiled
import proofs.«136383_j28862180229417_1_alg».proof.Proof.LibBlocks

noncomputable section

open scoped BigOperators

namespace Cert.KernelIdeal.Regions

open Cert.KernelIdeal Cert.KernelIdeal.Gen Idealize.ShloMosaic Idealize.ShloMosaic.TcCoe Idealize.ShloMosaic.ValueIdx

/-! ## The block body at one entry -/

/-- The body's two products are plain rows-by-columns products of a [2000, 128] block with a [128, 128] matrix. -/
theorem sage1_dims_plain : dot_S2000x128_S128x128_S2000x128_1_0_0_1_n_n = DotDims.plain 2000 128 128 := rfl

/-- The zero offset of a one-axis vector, as the constant function. -/
theorem sage1_off1_zero : (![0] : Fin 1 → Nat) = fun _ => 0 := funext fun a => by fin_cases a; rfl

/-- The bias vector laid out as a 1 x 128 row and repeated down the 2000 rows, at entry (p, q): the vector's entry q. -/
theorem sage1_bias_entry (b : FVec Ideal S128 .f32) (p : Fin 2000) (q : Fin 128) :
    broadcastTo S2000x128 (shapeCast S1x128 b shapeCasts_S128_S1x128) broadcasts_S1x128_S2000x128 (ix2 p q) = b (ix1 q) := by
  refine (broadcastTo_apply _ broadcasts_S1x128_S2000x128 (ix2 p q) (ix2 (0 : Fin 1) q) (fun a => ?_)).trans ?_
  · match a with
    | ⟨0, _⟩ => rfl
    | ⟨1, _⟩ => rfl
  · refine (shapeCast_addUnit_apply ![128] b shapeCasts_S128_S1x128 (ix2 (0 : Fin 1) q)).trans (congrArg b ?_)
    funext a
    match a with
    | ⟨0, _⟩ => rfl

/-- Entry (p, q) of what the body stores, from its five loaded blocks: the layer's entry (p, q) of those blocks.
    Each product into the zero accumulator is the sum over k of left (p, k) · right (k, q); the sums, the bias entry and
    the rectifier are then the layer's, term for term. -/
theorem sage1_pay_entry (x0 x1 : FVec Ideal S2000x128 .bf16) (x2 x4 : FVec Ideal S128x128 .bf16) (x3 : FVec Ideal S128 .f32)
    (p : Fin 2000) (q : Fin 128) :
    k1_pay1 (F := Ideal) x0 x1 x2 x4 x3 (ix2 p q)
      = Cert.Tiled.layerEntry (φa := .bf16) (φx := .bf16) (φl := .bf16) (φr := .bf16) x0 x1 x2 x3 x4 p q := by
  have e0 : matmul (F := Ideal) dot_S2000x128_S128x128_S2000x128_1_0_0_1_n_n none x0 x2
        (constant (F := Ideal) S2000x128 .f32 0x00000000#32) (ix2 p q)
      = ∑ k : Fin 128, x0 (ix2 p k) * x2 (ix2 k q) :=
    Cert.LibBlocks.matmul_plain_apply _ sage1_dims_plain none x0 x2 p q
  have e1 : matmul (F := Ideal) dot_S2000x128_S128x128_S2000x128_1_0_0_1_n_n none x1 x4
        (constant (F := Ideal) S2000x128 .f32 0x00000000#32) (ix2 p q)
      = ∑ k : Fin 128, x1 (ix2 p k) * x4 (ix2 k q) :=
    Cert.LibBlocks.matmul_plain_apply _ sage1_dims_plain none x1 x4 p q
  unfold k1_pay1 Cert.Tiled.layerEntry
  rw [maximumf_apply, addf_apply, addf_apply, shapeCast_self, shapeCast_self, shapeCast_self, shapeCast_self,
    e0, e1, sage1_bias_entry, broadcast_apply]
  rfl

/-- The same at any index j of the block, against whole arrays: if local row p of the two row blocks is row r p of the
    arrays A and X, and the weights and the bias are the whole arrays WL, WR and B, then the stored block's entry j is
    the layer of the whole arrays at row r (j 0), column j 1. The layer reads its row arrays in that one row only. -/
theorem sage1_block_eq (x0 x1 : FVec Ideal S2000x128 .bf16) (x2 x4 : FVec Ideal S128x128 .bf16) (x3 : FVec Ideal S128 .f32)
    (A X : FVec Ideal S50000x128 .bf16) (WL WR : FVec Ideal S128x128 .bf16) (B : FVec Ideal S128 .f32)
    (r : Fin 2000 → Fin 50000)
    (h0 : ∀ p k, x0 (ix2 p k) = A (ix2 (r p) k)) (h1 : ∀ p k, x1 (ix2 p k) = X (ix2 (r p) k))
    (h2 : x2 = WL) (h3 : x3 = B) (h4 : x4 = WR) (j : S2000x128.Idx) :
    k1_pay1 (F := Ideal) x0 x1 x2 x4 x3 j = Cert.Tiled.layerEntry A X WL B WR (r (j 0)) (j 1) := by
  subst h2 h3 h4
  obtain ⟨p, q, rfl⟩ : ∃ (p : Fin 2000) (q : Fin 128), j = ix2 p q := ⟨j 0, j 1, eq_ix2 j⟩
  rw [sage1_pay_entry]
  show Cert.Tiled.layerEntry x0 x1 x2 x3 x4 p q = Cert.Tiled.layerEntry A X x2 x3 x4 (r p) q
  unfold Cert.Tiled.layerEntry
  simp only [h0, h1]

/-! ## The blocks the call holds at point t -/

variable (V : (c : Dev nD) → (b : Ref sig .tc) → Buf (Elt Ideal) ((c : Thread nD τ).loc b))

/-- The block indices at point t, decided once over the 25 points: the two row arrays and the result are at row block
    t, column block 0; the weight matrices and the bias are at block 0 on every axis. -/
theorem sage1_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Local row p of the mean-row block at t is row 2000 t + p of the mean-row array: a block's coordinate is the
    block index times the block size plus the coordinate inside the block. -/
theorem sage1_rows_a (c : Dev nD) (t : Fin cfg1.N) (p : Fin 2000) (k : Fin 128) (r : Fin 50000)
    (hr : r.val = t.val * 2000 + p.val) :
    (iblk1 V c 0 t : FVec Ideal S2000x128 .bf16) (ix2 p k) = (V c main_v43 : FVec Ideal S50000x128 .bf16) (ix2 r k) := by
  obtain ⟨e0, e1, -⟩ := sage1_idx_facts t
  show V c main_v43 (((cfg1.win 0).blk t).view.emb (ix2 p k)) = V c main_v43 (ix2 r k)
  refine congrArg (V c main_v43) (funext fun a => Fin.ext ?_)
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- Local row p of the node-row block at t is row 2000 t + p of the node-row array. -/
theorem sage1_rows_x (c : Dev nD) (t : Fin cfg1.N) (p : Fin 2000) (k : Fin 128) (r : Fin 50000)
    (hr : r.val = t.val * 2000 + p.val) :
    (iblk1 V c 1 t : FVec Ideal S2000x128 .bf16) (ix2 p k) = (V c main_v44 : FVec Ideal S50000x128 .bf16) (ix2 r k) := by
  obtain ⟨-, -, e0, e1, -⟩ := sage1_idx_facts t
  show V c main_v44 (((cfg1.win 1).blk t).view.emb (ix2 p k)) = V c main_v44 (ix2 r k)
  refine congrArg (V c main_v44) (funext fun a => Fin.ext ?_)
  match a with
  | ⟨0, _⟩ => show win1_1.index t (0 : Fin 2) * 2000 + 1 * p.val = r.val; rw [e0, hr]; omega
  | ⟨1, _⟩ => show win1_1.index t (1 : Fin 2) * 128 + 1 * k.val = k.val; rw [e1]; omega

/-- The left weight block at every point is the whole left weight matrix (block 0 of an array one block large). -/
theorem sage1_whole_wl (c : Dev nD) (t : Fin cfg1.N) : (iblk1 V c 2 t : FVec Ideal S128x128 .bf16) = V c main_v45 := by
  obtain ⟨-, -, -, -, e0, e1, -⟩ := sage1_idx_facts t
  funext y
  show V c main_v45 (((cfg1.win 2).blk t).view.emb y) = V c main_v45 y
  refine congrArg (V c main_v45) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The bias block at every point is the whole bias vector. -/
theorem sage1_whole_b (c : Dev nD) (t : Fin cfg1.N) : (iblk1 V c 3 t : FVec Ideal S128 .f32) = V c main_arg6 := by
  obtain ⟨-, -, -, -, -, -, e0, -⟩ := sage1_idx_facts t
  funext y
  show V c main_arg6 (((cfg1.win 3).blk t).view.emb y) = V c main_arg6 y
  refine congrArg (V c main_arg6) (funext fun a => Fin.ext ?_)
  match a with
  | ⟨0, _⟩ => show win1_3.index t (0 : Fin 1) * 128 + 1 * (y 0).val = (y 0).val; rw [e0]; omega

/-- The right weight block at every point is the whole right weight matrix. -/
theorem sage1_whole_wr (c : Dev nD) (t : Fin cfg1.N) : (iblk1 V c 4 t : FVec Ideal S128x128 .bf16) = V c main_v46 := by
  obtain ⟨-, -, -, -, -, -, -, e0, e1, -⟩ := sage1_idx_facts t
  funext y
  show V c main_v46 (((cfg1.win 4).blk t).view.emb y) = V c main_v46 y
  refine congrArg (V c main_v46) (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-! ## From the blocks to the array -/

/-- WHAT POINT t WRITES BACK is rows 2000 t … 2000 t + 1999 of the layer of the five whole arrays: the body's one
    store covers its block, its loads read the whole blocks it holds, and entry (p, q) of the stored block is the
    layer at row 2000 t + p, column q, which is where the result's block at t puts it. -/
theorem sage1_flushed_eq (c : Dev nD) (t : Fin cfg1.N) :
    (dat1 (F := Ideal) V c).flushed 5 t
      = ((cfg1.win 5).blk t).view.read (Elt Ideal) (Cert.Tiled.layerT (φa := .bf16) (φx := .bf16) (φl := .bf16) (φr := .bf16) (V c main_v43) (V c main_v44) (V c main_v45) (V c main_arg6) (V c main_v46)) := by
  have hN : grid1.N = 25 := N_1
  have ht : t.val < 25 := hN ▸ t.isLt
  show (cfg1.win 5).cut (grid1.coords t) ((dat1 (F := Ideal) V c).after 5 t) = _
  rw [after1_5]
  unfold out1_5
  rw [View.canon_unit_zero Cert.LibBlocks.off2_zero]
  simp only [View.ld_unit_zero (S := S2000x128) Cert.LibBlocks.off2_zero,
    View.ld_unit_zero (S := S128x128) Cert.LibBlocks.off2_zero, View.ld_unit_zero (S := S128) sage1_off1_zero]
  obtain ⟨-, -, -, -, -, -, -, -, -, e0, e1⟩ := sage1_idx_facts t
  funext j
  have hj0 : (j 0).val < 2000 := (j 0).isLt
  have hj1 : (j 1).val < 128 := (j 1).isLt
  refine (sage1_block_eq (iblk1 V c 0 t) (iblk1 V c 1 t) (iblk1 V c 2 t) (iblk1 V c 4 t) (iblk1 V c 3 t)
    (V c main_v43) (V c main_v44) (V c main_v45) (V c main_v46) (V c main_arg6)
    (fun p => ⟨t.val * 2000 + p.val, by have := p.isLt; omega⟩)
    (fun p k => sage1_rows_a V c t p k _ rfl) (fun p k => sage1_rows_x V c t p k _ rfl)
    (sage1_whole_wl V c t) (sage1_whole_b V c t) (sage1_whole_wr V c t) (fun a => ⟨(j a).val, (j a).isLt⟩)).trans ?_
  show _ = Cert.Tiled.layerEntry (φa := .bf16) (φx := .bf16) (φl := .bf16) (φr := .bf16) (V c main_v43) (V c main_v44) (V c main_v45) (V c main_arg6) (V c main_v46)
    ((((cfg1.win 5).blk t).view.emb j) 0) ((((cfg1.win 5).blk t).view.emb j) 1)
  refine congrArg₂ (Cert.Tiled.layerEntry (φa := .bf16) (φx := .bf16) (φl := .bf16) (φr := .bf16) (V c main_v43) (V c main_v44) (V c main_v45) (V c main_arg6) (V c main_v46)) (Fin.ext ?_) (Fin.ext ?_)
  · show t.val * 2000 + (j 0).val = win1_5.index t (0 : Fin 2) * 2000 + 1 * (j 0).val
    rw [e0]; omega
  · show (j 1).val = win1_5.index t (1 : Fin 2) * 128 + 1 * (j 1).val
    rw [e1]; omega

/-- An index of the result is in point t's block iff each coordinate is in the block's range on its axis. -/
theorem sage1_mem_blk (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v47).slice (win1_5.rect t)).set ↔ _
  rw [View.set_slice_whole, Rect.mem_set_unit]
  exact Iff.rfl

/-- Every index of the result is written back by some point: row r by point r / 2000. -/
theorem sage1_cover (i : S50000x128.Idx) :
    ∃ t : Fin cfg1.N, (cfg1.win 5).flush t = true ∧ i ∈ ((cfg1.win 5).blk t).view.set := by
  have hN : grid1.N = 25 := N_1
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, by show (i 0).val / 2000 < grid1.N; rw [hN]; omega⟩, rfl⟩
  obtain ⟨-, -, -, -, -, -, -, -, -, e0, e1⟩ := sage1_idx_facts t
  refine ⟨t, flush1_5 t, ?_⟩
  rw [sage1_mem_blk]
  intro a
  match a with
  | ⟨0, _⟩ =>
    show win1_5.index t (0 : Fin 2) * 2000 ≤ (i 0).val ∧ (i 0).val < win1_5.index t (0 : Fin 2) * 2000 + 2000
    rw [e0, ht]; omega
  | ⟨1, _⟩ =>
    show win1_5.index t (1 : Fin 2) * 128 ≤ (i 1).val ∧ (i 1).val < win1_5.index t (1 : Fin 2) * 128 + 128
    rw [e1]; omega

/-- THE RESULT ARRAY after the call: the layer of the five operand arrays as the call found them. Every point writes
    back the matching rows of that one function, and the points' blocks cover the array. -/
theorem region1_array (c : Dev nD) :
    (dat1 (F := Ideal) V c).arrAt 5 cfg1.N
      = Cert.Tiled.layerT (φa := .bf16) (φx := .bf16) (φl := .bf16) (φr := .bf16) (V c main_v43) (V c main_v44) (V c main_v45) (V c main_arg6) (V c main_v46) :=
  (dat1 (F := Ideal) V c).arrAt_eq_of_cover 5 _ (fun t _ => sage1_flushed_eq V c t) sage1_cover

end Cert.KernelIdeal.Regions

end
-- ==== Proof.LibLaneSum.lean ====
/-
  A lane sum over one axis, and the small layout changes around it, read at coordinates, at the ideal values.

  At the ideal values a float sum over one axis of an array is, at each index of the result, the plain sum of the
  entries along that axis (no order, no rounding).  Written with the result's index given by its coordinates: summing
  the last axis of `[A, B, C]` at `(a, b)` is `Σ_c v(a, b, c)`; summing the first at `(b, c)` is `Σ_a v(a, b, c)`; summing
  the second axis of `[A, B]` at `a` is `Σ_b v(a, b)`.  An array `[A, 1, B, C]` viewed as `[A, B, C]` has the same entries,
  and extracting position `[0, 0]` of a `[1, 1]` array reads its one entry.  All extents are arbitrary.
-/
import Idealize.ShloMosaic.PureOps.Ideal.Laws
import Idealize.ShloMosaic.Lib.Pipeline.Value
import Idealize.ShloMosaic.Lib.ValueIdx

noncomputable section

open scoped BigOperators

namespace Cert.LibLaneSum

open Idealize.ShloMosaic Idealize.ShloMosaic.ValueIdx

/-- The sum over the last axis of `[A, B, C]`, at `(a, b)`. -/
theorem sum_last3 {A B C : Nat} (v : FVec Ideal ⟨3, ![A, B, C]⟩ .f32) (acc : BitVec 32)
    (h : (⟨3, ![A, B, C]⟩ : Shape).Reduces [2] ⟨2, ![A, B]⟩) (hφ : FKind.Formats .f32)
    (hacc : acc = FKind.add.neutral .f32 hφ) (a : Fin A) (b : Fin B) :
    multiReduction .add [2] ⟨2, ![A, B]⟩ v acc h hφ hacc (ix2 a b) = ∑ c : Fin C, v (ix3 a b c) := by
  refine (Ideal.multiReduction_add_single v acc h hφ hacc (ix2 a b)).trans ?_
  exact Finset.sum_congr rfl fun k _ => congrArg v (funext fun d => Fin.ext (by
    match d with | ⟨0, _⟩ => rfl | ⟨1, _⟩ => rfl | ⟨2, _⟩ => rfl))

/-- The sum over the first axis of `[A, B, C]`, at `(b, c)`. -/
theorem sum_first3 {A B C : Nat} (v : FVec Ideal ⟨3, ![A, B, C]⟩ .f32) (acc : BitVec 32)
    (h : (⟨3, ![A, B, C]⟩ : Shape).Reduces [0] ⟨2, ![B, C]⟩) (hφ : FKind.Formats .f32)
    (hacc : acc = FKind.add.neutral .f32 hφ) (b : Fin B) (c : Fin C) :
    multiReduction .add [0] ⟨2, ![B, C]⟩ v acc h hφ hacc (ix2 b c) = ∑ a : Fin A, v (ix3 a b c) := by
  refine (Ideal.multiReduction_add_single v acc h hφ hacc (ix2 b c)).trans ?_
  exact Finset.sum_congr rfl fun k _ => congrArg v (funext fun d => Fin.ext (by
    match d with | ⟨0, _⟩ => rfl | ⟨1, _⟩ => rfl | ⟨2, _⟩ => rfl))

/-- The sum over the second axis of `[A, B]`, at `a`. -/
theorem sum_last2 {A B : Nat} (v : FVec Ideal ⟨2, ![A, B]⟩ .f32) (acc : BitVec 32)
    (h : (⟨2, ![A, B]⟩ : Shape).Reduces [1] ⟨1, ![A]⟩) (hφ : FKind.Formats .f32)
    (hacc : acc = FKind.add.neutral .f32 hφ) (a : Fin A) :
    multiReduction .add [1] ⟨1, ![A]⟩ v acc h hφ hacc (ix1 a) = ∑ b : Fin B, v (ix2 a b) := by
  refine (Ideal.multiReduction_add_single v acc h hφ hacc (ix1 a)).trans ?_
  exact Finset.sum_congr rfl fun k _ => congrArg v (funext fun d => Fin.ext (by
    match d with | ⟨0, _⟩ => rfl | ⟨1, _⟩ => rfl))

/-- `[A, 1, B, C]` viewed as `[A, B, C]`: entry `(a, b, c)` is entry `(a, 0, b, c)`. -/
theorem squeeze_mid {α : Type} {A B C : Nat} (x : (⟨4, ![A, 1, B, C]⟩ : Shape).Idx → α)
    (h : (⟨4, ![A, 1, B, C]⟩ : Shape).ShapeCasts ⟨3, ![A, B, C]⟩) (a : Fin A) (b : Fin B) (c : Fin C) :
    shapeCast ⟨3, ![A, B, C]⟩ x h (ix3 a b c) = x (ix4 a (0 : Fin 1) b c) :=
  shapeCast_apply x h _ _ (by
    rw [Shape.rowMajor_val_four, Shape.rowMajor_val_three]
    show ((a.val * 1 + 0) * B + b.val) * C + c.val = (a.val * B + b.val) * C + c.val
    rw [Nat.mul_one, Nat.add_zero])

/-- Position `[0, 0]` of a `[1, 1]` array, as a vector extract spells it, is its entry `(0, 0)`. -/
theorem extract_00 {α : Type} (v : (⟨2, ![1, 1]⟩ : Shape).Idx → α)
    (h : ∀ a, (![0, 0] : Fin 2 → Nat) a < (⟨2, ![1, 1]⟩ : Shape).size a) :
    extractAt ![0, 0] v h = v (ix2 (0 : Fin 1) (0 : Fin 1)) :=
  congrArg v (funext fun a => Fin.ext (by match a with | ⟨0, _⟩ => rfl | ⟨1, _⟩ => rfl))

end Cert.LibLaneSum

end
-- ==== Proof.LibColumn.lean ====
/-
  A column kept beside a matrix. A vector of a entries reshaped to an a x 1 column holds entry p at (p, 0): the
  column's row-major position p * 1 + 0 is the vector's index p. An a x 1 column broadcast to a x b repeats each
  row's one entry along the row: entry (p, c) of the result is entry (p, 0) of the column, since the column's
  second axis has length one and its first axis is carried over unchanged.
-/
import Idealize.ShloMosaic.Lib.Pipeline.Value
import Idealize.ShloMosaic.Lib.ValueIdx

namespace Cert.Proof.Column

open Idealize.ShloMosaic Idealize.ShloMosaic.ValueIdx

variable {α : Type}

/-- A vector of `a` entries as an `a x 1` column reads, at `(p, u)`, entry `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a x 1` column broadcast to `a x b` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Proof.Column
-- ==== Proof.Region2.lean ====
/-
  THE EDGE SCORES AS ONE COLUMN. The third tiled region scores 800000 edges in 200 blocks of 4000 rows. Point t reads
  rows 4000 t … 4000 t + 3999 of the edge features f [800000, 256] and, whole, the weights w3 [256, 256], the bias
  b3 [256], the vector w4 [256] and the bias b4 [1]; it writes rows 4000 t … 4000 t + 3999 of the result [800000, 1].

  Three steps, at the extended reals:

  * one entry of a block: entry (p, 0) of what a point computes from its block x is
        Σ_j max( Σ_k x(p, k) · w3(k, j) + b3(j), 0 ) · w4(j)  +  b4(0),
    the matrix product read entry by entry, the bias row and w4 repeated down the rows, the lane sum over j kept as a
    [4000, 1] column, b4 repeated down that column;
  * one block of the result: that expression reads only row p of the block, and row p of block t of the features is
    row 4000 t + p of the array, so what point t writes back is block t of the one column
        (e, 0) ↦ Σ_j max( Σ_k f(e, k) · w3(k, j) + b3(j), 0 ) · w4(j)  +  b4(0);
  * the whole result: row r lies in block r / 4000, so the 200 blocks cover the column and the array ends holding it.
-/
import proofs.«136383_j28862180229417_1_alg».proof.Proof.Gen.KernelIdeal.Frame
import proofs.«136383_j28862180229417_1_alg».proof.Proof.Tiled
import proofs.«136383_j28862180229417_1_alg».proof.Proof.LibBlocks
import proofs.«136383_j28862180229417_1_alg».proof.Proof.LibLaneSum
import proofs.«136383_j28862180229417_1_alg».proof.Proof.LibColumn
import Idealize.ShloMosaic.Lib.ValueLayout

noncomputable section

open scoped BigOperators

namespace Cert.KernelIdeal.Regions

open Cert.KernelIdeal Cert.KernelIdeal.Gen Idealize.ShloMosaic Idealize.ShloMosaic.TcCoe Idealize.ShloMosaic.ValueIdx

namespace EdgeScore

/-! ## One entry of a block's result -/

/-- The body's matrix product is a plain rows-by-columns product of a 4000 x 256 block with a 256 x 256 matrix. -/
theorem dot2_plain : dot_S4000x256_S256x256_S4000x256_1_0_0_1_n_n = DotDims.plain 4000 256 256 := rfl

/-- Entry (p, j) of the hidden layer of a block: max(Σ_k f(p, k) · w3(k, j) + b3(j), 0). -/
theorem hidden2_entry (x0 : FVec Ideal S4000x256 .bf16) (x1 : FVec Ideal S256x256 .bf16) (x2 : FVec Ideal S256 .f32)
    (p : Fin 4000) (j : Fin 256) :
    maximumf
        (addf
          (matmul dot_S4000x256_S256x256_S4000x256_1_0_0_1_n_n none (shapeCast S4000x256 x0 shapeCasts_S4000x256_S4000x256)
            (shapeCast S256x256 x1 shapeCasts_S256x256_S256x256) (constant (F := Ideal) S4000x256 .f32 0x00000000#32))
          (broadcastTo S4000x256 (shapeCast S1x256 x2 shapeCasts_S256_S1x256) broadcasts_S1x256_S4000x256))
        (broadcast S4000x256 (Scalar.ofBits (F := Ideal) .f32 0x00000000#32)) (ix2 p j)
      = max (∑ k : Fin 256, x0 (ix2 p k) * x1 (ix2 k j) + x2 (ix1 j)) (Ideal.ofBits .f32 0x00000000#32) := by
  rw [maximumf_apply, addf_apply, shapeCast_self, shapeCast_self, broadcastTo_1b_ab_apply, shapeCast_a_1a_apply]
  show max (FloatOps.matmul dot_S4000x256_S256x256_S4000x256_1_0_0_1_n_n none x0 x1 (constant ⟨2, ![4000, 256]⟩ .f32 0x00000000#32) (ix2 p j) + x2 (ix1 j)) _ = _
  rw [Cert.LibBlocks.matmul_plain_apply _ dot2_plain]
  rfl

/-- Entry (p, 0) of a block's result is the score of the block's row p: the lane sum over j of the hidden layer's
    entry (p, j) times w4(j), plus b4(0). The [4000] lane sums are kept as a [4000, 1] column, and b4 is repeated
    down that column. -/
theorem pay2_entry (x0 : FVec Ideal S4000x256 .bf16) (x1 : FVec Ideal S256x256 .bf16) (x2 x3 : FVec Ideal S256 .f32)
    (x4 : FVec Ideal S1 .f32) (p : Fin 4000) (u : Fin 1) :
    k2_pay1 (F := Ideal) x0 x1 x2 x3 x4 (ix2 p u) = Cert.Tiled.scoreEntry x0 x1 x2 x3 x4 p := by
  obtain rfl : u = 0 := Subsingleton.elim _ _
  unfold k2_pay1 Cert.Tiled.scoreEntry
  dsimp only
  rw [addf_apply, Cert.Proof.Column.shapeCast_a_a1_apply, broadcastTo_1b_ab_apply, shapeCast_a_1a_apply]
  refine congrArg (· + x4 (ix1 (0 : Fin 1))) ?_
  refine (Cert.LibLaneSum.sum_last2 _ _ _ _ _ p).trans (Finset.sum_congr rfl fun j _ => ?_)
  rw [mulf_apply, broadcastTo_1b_ab_apply, shapeCast_a_1a_apply, shapeCast_self x3]
  exact congrArg (· * x3 (ix1 j)) (hidden2_entry x0 x1 x2 p j)

/-! ## A block's entry against the array's entry -/

/-- The score of row p of a block [4000, 256] is the score of row r of the array [800000, 256] when the block's
    row p is the array's row r: the score reads no other row of the features. -/
theorem block2_entry (x0 : FVec Ideal S4000x256 .bf16) (x1 : FVec Ideal S256x256 .bf16) (x2 x3 : FVec Ideal S256 .f32)
    (x4 : FVec Ideal S1 .f32) (f : FVec Ideal S800000x256 .bf16) (p : Fin 4000) (u : Fin 1) (r : Fin 800000)
    (h0 : ∀ k : Fin 256, x0 (ix2 p k) = f (ix2 r k)) :
    k2_pay1 (F := Ideal) x0 x1 x2 x3 x4 (ix2 p u) = Cert.Tiled.scoreEntry f x1 x2 x3 x4 r := by
  rw [pay2_entry]
  unfold Cert.Tiled.scoreEntry
  simp only [h0]

/-! ## The windows' blocks as parts of their arrays -/

variable (V : (c : Dev nD) → (b : Ref sig .tc) → Buf (Elt Ideal) ((c : Thread nD τ).loc b))

theorem off2_zero : (![0, 0] : Fin 2 → Nat) = fun _ => 0 := funext fun a => by fin_cases a <;> rfl
theorem off1_zero : (![0] : Fin 1 → Nat) = fun _ => 0 := funext fun a => by fin_cases a <;> rfl

/-- The block numbers, decided once over the 200 points: at point t the feature window and the result window are
    at row block t, column block 0; the weights, the biases and w4 are whole arrays, at block 0. -/
theorem index_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0 ∧ win2_3.index t (0 : Fin 1) = 0 ∧ win2_4.index t (0 : Fin 1) = 0
    ∧ win2_5.index t (0 : Fin 2) = t.val ∧ win2_5.index t (1 : Fin 2) = 0 :=
  (by decide +kernel : ∀ t : Fin grid2.N, _)

/-- The weight window's block is the whole weight matrix, at every point. -/
theorem iblk2_1_eq (c : Dev nD) (t : Fin cfg2.N) : (iblk2 V c 1 t : FVec Ideal S256x256 .bf16) = V c main_v64 := by
  obtain ⟨-, -, e0, e1, -⟩ := index_facts2 t
  funext y
  show V c main_v64 (((cfg2.win 1).blk t).view.emb y) = V c main_v64 y
  refine congrArg _ (funext fun a => Fin.ext ?_)
  match a with
  | ⟨0, _⟩ => show win2_1.index t (0 : Fin 2) * 256 + 1 * (y 0).val = (y 0).val; rw [e0]; omega
  | ⟨1, _⟩ => show win2_1.index t (1 : Fin 2) * 256 + 1 * (y 1).val = (y 1).val; rw [e1]; omega

/-- The bias window's block is the whole bias vector, at every point. -/
theorem iblk2_2_eq (c : Dev nD) (t : Fin cfg2.N) : (iblk2 V c 2 t : FVec Ideal S256 .f32) = V c main_arg9 := by
  obtain ⟨-, -, -, -, e, -⟩ := index_facts2 t
  funext y
  show V c main_arg9 (((cfg2.win 2).blk t).view.emb y) = V c main_arg9 y
  refine congrArg _ (funext fun a => Fin.ext ?_)
  match a with
  | ⟨0, _⟩ => show win2_2.index t (0 : Fin 1) * 256 + 1 * (y 0).val = (y 0).val; rw [e]; omega

/-- The window of w4 holds the whole vector, at every point. -/
theorem iblk2_3_eq (c : Dev nD) (t : Fin cfg2.N) : (iblk2 V c 3 t : FVec Ideal S256 .f32) = V c main_v65 := by
  obtain ⟨-, -, -, -, -, e, -⟩ := index_facts2 t
  funext y
  show V c main_v65 (((cfg2.win 3).blk t).view.emb y) = V c main_v65 y
  refine congrArg _ (funext fun a => Fin.ext ?_)
  match a with
  | ⟨0, _⟩ => show win2_3.index t (0 : Fin 1) * 256 + 1 * (y 0).val = (y 0).val; rw [e]; omega

/-- The window of b4 holds its one entry, at every point. -/
theorem iblk2_4_eq (c : Dev nD) (t : Fin cfg2.N) : (iblk2 V c 4 t : FVec Ideal S1 .f32) = V c main_arg11 := by
  obtain ⟨-, -, -, -, -, -, e, -⟩ := index_facts2 t
  funext y
  show V c main_arg11 (((cfg2.win 4).blk t).view.emb y) = V c main_arg11 y
  refine congrArg _ (funext fun a => Fin.ext ?_)
  match a with
  | ⟨0, _⟩ => show win2_4.index t (0 : Fin 1) * 1 + 1 * (y 0).val = (y 0).val; rw [e]; omega

/-! ## What a point writes back -/

/-- Point t writes back block t of the score column: entry (p, 0) of its result is the score of row p of its
    feature block, which is row 4000 t + p of the feature array, the row of the score column that entry (p, 0) of
    block t of the result is. -/
theorem flushed2_eq (c : Dev nD) (t : Fin cfg2.N) :
    (dat2 (F := Ideal) V c).flushed 5 t = ((cfg2.win 5).blk t).view.read (Elt Ideal)
      (Cert.Tiled.scoreT (φf := .bf16) (φw := .bf16) (V c main_v63) (V c main_v64) (V c main_arg9) (V c main_v65) (V c main_arg11)) := by
  show (cfg2.win 5).cut (grid2.coords t) ((dat2 V c).after 5 t) = _
  rw [after2_5]
  unfold out2_5
  rw [View.canon_unit_zero off2_zero]
  simp only [View.ld_unit_zero (S := S4000x256) off2_zero, View.ld_unit_zero (S := S256x256) off2_zero,
    View.ld_unit_zero (S := S256) off1_zero, View.ld_unit_zero (S := S1) off1_zero]
  obtain ⟨e0, e1, -, -, -, -, -, e5, -⟩ := index_facts2 t
  funext (y : S4000x1.Idx)
  obtain ⟨p, u, rfl⟩ : ∃ (p : Fin 4000) (u : Fin 1), y = ix2 p u := ⟨y 0, y 1, eq_ix2 y⟩
  rw [iblk2_1_eq V c t, iblk2_2_eq V c t, iblk2_3_eq V c t, iblk2_4_eq V c t]
  show k2_pay1 (F := Ideal) (iblk2 V c 0 t) (V c main_v64) (V c main_arg9) (V c main_v65) (V c main_arg11) (ix2 p u)
    = Cert.Tiled.scoreEntry (φf := .bf16) (φw := .bf16) (V c main_v63) (V c main_v64) (V c main_arg9) (V c main_v65) (V c main_arg11)
        ((((cfg2.win 5).blk t).view.emb (ix2 p u)) 0)
  refine block2_entry (iblk2 V c 0 t) _ _ _ _ (V c main_v63) p u _ fun k => ?_
  show V c main_v63 (((cfg2.win 0).blk t).view.emb (ix2 p k)) = V c main_v63 (ix2 ((((cfg2.win 5).blk t).view.emb (ix2 p u)) 0) k)
  refine congrArg _ (funext fun a => Fin.ext ?_)
  match a with
  | ⟨0, _⟩ =>
    show win2_0.index t (0 : Fin 2) * 4000 + 1 * p.val = win2_5.index t (0 : Fin 2) * 4000 + 1 * p.val
    rw [e0, e5]
  | ⟨1, _⟩ =>
    show win2_0.index t (1 : Fin 2) * 256 + 1 * k.val = k.val
    rw [e1]; omega

/-! ## The blocks cover the column -/

/-- An entry of the score column is in point t's block iff, on each axis, its coordinate is in the block's range. -/
theorem mem_blk2 (t : Fin cfg2.N) (i : S800000x1.Idx) :
    i ∈ ((cfg2.win 5).blk t).view.set ↔ ∀ a : Fin 2, win2_5.index t a * S4000x1.size a ≤ (i a).val
      ∧ (i a).val < win2_5.index t a * S4000x1.size a + S4000x1.size a := by
  show i ∈ ((View.whole main_v66).slice (win2_5.rect t)).set ↔ _
  rw [View.set_slice_whole, Rect.mem_set_unit]
  exact Iff.rfl

end EdgeScore

open EdgeScore

variable (V : (c : Dev nD) → (b : Ref sig .tc) → Buf (Elt Ideal) ((c : Thread nD τ).loc b))

/-- THE SCORE COLUMN after the region: every row r is written by point r / 4000, each point writes its block of the
    one column of scores, so the array ends holding that column. -/
theorem region2_array (c : Dev nD) :
    (dat2 (F := Ideal) V c).arrAt 5 cfg2.N
      = Cert.Tiled.scoreT (φf := .bf16) (φw := .bf16) (V c main_v63) (V c main_v64) (V c main_arg9) (V c main_v65) (V c main_arg11) := by
  refine (dat2 V c).arrAt_eq_of_cover 5 _ (fun t _ => flushed2_eq V c t) fun i => ?_
  have hi0 : (i 0 : Nat) < 800000 := (i 0).isLt
  have hi1 : (i 1 : Nat) < 1 := (i 1).isLt
  have hN : cfg2.N = 200 := N_2
  obtain ⟨t, ht⟩ : ∃ t : Fin cfg2.N, t.val = (i 0 : Nat) / 4000 := ⟨⟨(i 0 : Nat) / 4000, by rw [hN]; omega⟩, rfl⟩
  obtain ⟨-, -, -, -, -, -, -, e0, e1⟩ := index_facts2 t
  refine ⟨t, flush2_5 t, ?_⟩
  rw [mem_blk2]
  intro a
  match a with
  | ⟨0, _⟩ =>
    show win2_5.index t (0 : Fin 2) * 4000 ≤ (i 0 : Nat) ∧ (i 0 : Nat) < win2_5.index t (0 : Fin 2) * 4000 + 4000
    rw [e0, ht]; omega
  | ⟨1, _⟩ =>
    show win2_5.index t (1 : Fin 2) * 1 ≤ (i 1 : Nat) ∧ (i 1 : Nat) < win2_5.index t (1 : Fin 2) * 1 + 1
    rw [e1]; omega

end Cert.KernelIdeal.Regions

end
-- ==== Proof.LibDenseLayer.lean ====
/-
  ONE DENSE LAYER ON A BLOCK OF ROWS, SET BESIDE THE SAME LAYER ON THE WHOLE ARRAY, READ AT ONE ENTRY.

  A dense layer sends a row x of K numbers to the row  q ↦ (Σ_k x_k · w(k, q)) + c(0, q),  optionally followed by the
  rectifier max(·, 0). It acts on every row by itself. So if row p of a block [n, K] is row r of an array [N, K], then
  entry (p, q) of the layer applied to the block is entry (r, q) of the layer applied to the array:

  * product_entry: the matrix unit's product into a zero accumulator, both operands narrowed on the way in, against
    the host's product (a change of float format is the identity on the extended reals, and both products are the
    sum over k of left (row, k) · right (k, q), in the same order);
  * hidden_entry: product, bias row broadcast down the rows, rectifier;
  * out_entry: product and bias row only.

  The bias is a 1 x b row on both sides; the block broadcasts it as a vector broadcast, the array along its two axes.
  Generic in the extents; a program's dimension numbers enter through an equation with the plain rows-by-columns
  record.
-/
import proofs.«136383_j28862180229417_1_alg».proof.Proof.LibBlocks

noncomputable section

open scoped BigOperators

namespace Cert.LibDenseLayer

open Idealize.ShloMosaic Idealize.ShloMosaic.ValueIdx

variable {n N K b : Nat}

/-- The product: entry (p, q) of block times matrix is entry (r, q) of array times matrix, when block row p is array
    row r. -/
theorem product_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (X : FVec Ideal ⟨2, ![n, K]⟩ .f32) (XX : FVec Ideal ⟨2, ![N, K]⟩ .f32) (w : FVec Ideal ⟨2, ![K, b]⟩ .f32)
    (p : Fin n) (r : Fin N) (h0 : ∀ k : Fin K, X (ix2 p k) = XX (ix2 r k)) (q : Fin b) :
    matmul dk none (truncf .bf16 X hlt) (truncf .bf16 w hlt) (constant ⟨2, ![n, b]⟩ .f32 0x00000000#32) (ix2 p q)
      = Host.dotGeneral dr none XX w (ix2 r q) := by
  show FloatOps.matmul dk none _ _ _ _ = FloatOps.dotGeneral dr none .single XX w (ix2 r q)
  rw [Cert.LibBlocks.matmul_plain_apply dk hdk, Cert.LibBlocks.dotGeneral_plain_apply dr hdr]
  refine Finset.sum_congr rfl fun k _ => ?_
  rw [truncf_apply, truncf_apply, h0 k]

/-- The bias row broadcast down the rows of a block, at entry (p, q): the row's entry q. -/
theorem bias_block_entry
    (hc1 : (⟨2, ![1, b]⟩ : Shape).ShapeCasts ⟨2, ![1, b]⟩) (hb : (⟨2, ![1, b]⟩ : Shape).Broadcasts ⟨2, ![n, b]⟩)
    (c : FVec Ideal ⟨2, ![1, b]⟩ .f32) (p : Fin n) (q : Fin b) :
    broadcastTo ⟨2, ![n, b]⟩ (shapeCast ⟨2, ![1, b]⟩ c hc1) hb (ix2 p q) = c (ix2 (0 : Fin 1) q) := by
  rw [shapeCast_self]
  exact broadcastTo_apply c hb (ix2 p q) (ix2 (0 : Fin 1) q) (fun a => by
    match a with
    | ⟨0, _⟩ => rfl
    | ⟨1, _⟩ =>
      show q.val = if b = 1 then 0 else q.val
      have := q.isLt
      split_ifs <;> omega)

/-- The bias row broadcast along both axes of the array, at entry (r, q): the row's entry q. -/
theorem bias_array_entry
    (hbd : (⟨2, ![1, b]⟩ : Shape).BroadcastsInDim ⟨2, ![N, b]⟩ ![0, 1])
    (c : FVec Ideal ⟨2, ![1, b]⟩ .f32) (r : Fin N) (q : Fin b) :
    broadcastInDim ⟨2, ![N, b]⟩ ![0, 1] hbd c (ix2 r q) = c (ix2 (0 : Fin 1) q) :=
  broadcastInDim_apply ![0, 1] hbd c (ix2 r q) (ix2 (0 : Fin 1) q) (fun a => by
    match a with
    | ⟨0, _⟩ => rfl
    | ⟨1, _⟩ =>
      show q.val = if b = 1 then 0 else q.val
      have := q.isLt
      split_ifs <;> omega)

/-- Product and bias: entry (p, q) on the block is entry (r, q) on the array. -/
theorem out_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (hc1 : (⟨2, ![1, b]⟩ : Shape).ShapeCasts ⟨2, ![1, b]⟩) (hb : (⟨2, ![1, b]⟩ : Shape).Broadcasts ⟨2, ![n, b]⟩)
    (hbd : (⟨2, ![1, b]⟩ : Shape).BroadcastsInDim ⟨2, ![N, b]⟩ ![0, 1])
    (X : FVec Ideal ⟨2, ![n, K]⟩ .f32) (XX : FVec Ideal ⟨2, ![N, K]⟩ .f32) (w : FVec Ideal ⟨2, ![K, b]⟩ .f32)
    (c : FVec Ideal ⟨2, ![1, b]⟩ .f32)
    (p : Fin n) (r : Fin N) (h0 : ∀ k : Fin K, X (ix2 p k) = XX (ix2 r k)) (q : Fin b) :
    addf (matmul dk none (truncf .bf16 X hlt) (truncf .bf16 w hlt) (constant ⟨2, ![n, b]⟩ .f32 0x00000000#32))
        (broadcastTo ⟨2, ![n, b]⟩ (shapeCast ⟨2, ![1, b]⟩ c hc1) hb) (ix2 p q)
      = addf (Host.dotGeneral dr none XX w) (broadcastInDim ⟨2, ![N, b]⟩ ![0, 1] hbd c) (ix2 r q) := by
  rw [addf_apply, addf_apply, product_entry dk hdk dr hdr hlt X XX w p r h0 q, bias_block_entry hc1 hb c p q,
    bias_array_entry hbd c r q]

/-- Product, bias and rectifier: entry (p, q) on the block is entry (r, q) on the array. -/
theorem hidden_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (hc1 : (⟨2, ![1, b]⟩ : Shape).ShapeCasts ⟨2, ![1, b]⟩) (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (X : FVec Ideal ⟨2, ![n, K]⟩ .f32) (XX : FVec Ideal ⟨2, ![N, K]⟩ .f32) (w : FVec Ideal ⟨2, ![K, b]⟩ .f32)
    (c : FVec Ideal ⟨2, ![1, b]⟩ .f32)
    (p : Fin n) (r : Fin N) (h0 : ∀ k : Fin K, X (ix2 p k) = XX (ix2 r k)) (q : Fin b) :
    maximumf (addf (matmul dk none (truncf .bf16 X hlt) (truncf .bf16 w hlt) (constant ⟨2, ![n, b]⟩ .f32 0x00000000#32))
          (broadcastTo ⟨2, ![n, b]⟩ (shapeCast ⟨2, ![1, b]⟩ c hc1) hb))
        (broadcast ⟨2, ![n, b]⟩ (Scalar.ofBits (F := Ideal) .f32 0x00000000#32)) (ix2 p q)
      = maximumf (addf (Host.dotGeneral dr none XX w) (broadcastInDim ⟨2, ![N, b]⟩ ![0, 1] hbd c))
        (broadcastInDim ⟨2, ![N, b]⟩ ![] hz (constant (F := Ideal) ⟨0, ![]⟩ .f32 0x00000000#32)) (ix2 r q) := by
  rw [maximumf_apply, maximumf_apply, out_entry dk hdk dr hdr hlt hc1 hb hbd X XX w c p r h0 q,
    broadcastInDim_apply ![] hz (constant (F := Ideal) ⟨0, ![]⟩ .f32 0x00000000#32) (ix2 r q) ix0 (fun a => a.elim0)]
  rfl

end Cert.LibDenseLayer

end
-- ==== Proof.LibReal.lean ====
/-
  Which array operations keep every entry a real number.

  At the ideal instance a float is an extended real: a real number, or one of the two infinities.  The
  arithmetic of the extended reals is the reals' arithmetic only away from the infinities, so a statement about
  a network's value has to know that no infinity arises on the way.  This file says of each array operation
  that it maps arrays of real entries to arrays of real entries: the pointwise sum, difference, product and
  maximum; the choice between two arrays; every re-indexing (repeating along new axes, recasting the shape,
  cutting a block out, taking rows by an index array); a constant whose bit pattern denotes a real; the
  quotient by nonzero reals; the reciprocal square root of positive reals; a sum along an axis; a matrix
  product; and the accumulation of rows into a table.  Each statement is generic in the shapes.
-/
import Idealize.ShloMosaic.PureOps.Ideal
import Idealize.ShloMosaic.PureOps.Ideal.Laws

noncomputable section

namespace Cert.LibReal

open Idealize.ShloMosaic

/-- Every entry of the array is a real number: neither infinity. -/
def AllReal {S : Shape} (a : S.Idx → EReal) : Prop := ∀ i, ∃ r : ℝ, a i = (r : EReal)

/-- Every entry of the array is a nonzero real number. -/
def AllNonzero {S : Shape} (a : S.Idx → EReal) : Prop := ∀ i, ∃ r : ℝ, r ≠ 0 ∧ a i = (r : EReal)

/-- Every entry of the array is a positive real number. -/
def AllPos {S : Shape} (a : S.Idx → EReal) : Prop := ∀ i, ∃ r : ℝ, 0 < r ∧ a i = (r : EReal)

/-- Positive reals are nonzero reals. -/
theorem AllPos.allNonzero {S : Shape} {a : S.Idx → EReal} (h : AllPos a) : AllNonzero a := fun i => by
  obtain ⟨r, hr, e⟩ := h i
  exact ⟨r, hr.ne', e⟩

/-- Nonzero reals are reals. -/
theorem AllNonzero.allReal {S : Shape} {a : S.Idx → EReal} (h : AllNonzero a) : AllReal a := fun i => by
  obtain ⟨r, _, e⟩ := h i
  exact ⟨r, e⟩

/-- Positive reals are reals. -/
theorem AllPos.allReal {S : Shape} {a : S.Idx → EReal} (h : AllPos a) : AllReal a := h.allNonzero.allReal

/-- A finite sum of reals, taken in the extended reals, is the real sum. -/
theorem coe_finset_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of extended reals each of which is a real number is a real number. -/
theorem exists_real_sum {ι : Type} (s : Finset ι) (f : ι → EReal) (h : ∀ k ∈ s, ∃ r : ℝ, f k = (r : EReal)) :
    ∃ r : ℝ, ∑ k ∈ s, f k = (r : EReal) := by
  classical
  choose! g hg using h
  exact ⟨∑ k ∈ s, g k, by rw [coe_finset_sum]; exact Finset.sum_congr rfl hg⟩

/-! ## Pointwise operations -/

section Pointwise
variable {S : Shape} {φ : FTy}

/-- The entrywise sum of two arrays of reals is an array of reals. -/
theorem addf_allReal {a b : FVec Ideal S φ} (ha : AllReal a) (hb : AllReal b) : AllReal (addf a b) := fun i => by
  obtain ⟨r, hr⟩ := ha i
  obtain ⟨t, ht⟩ := hb i
  exact ⟨r + t, by show a i + b i = _; rw [hr, ht, EReal.coe_add]⟩

/-- The entrywise difference of two arrays of reals is an array of reals. -/
theorem subf_allReal {a b : FVec Ideal S φ} (ha : AllReal a) (hb : AllReal b) : AllReal (subf a b) := fun i => by
  obtain ⟨r, hr⟩ := ha i
  obtain ⟨t, ht⟩ := hb i
  exact ⟨r - t, by show a i - b i = _; rw [hr, ht, EReal.coe_sub]⟩

/-- The entrywise product of two arrays of reals is an array of reals. -/
theorem mulf_allReal {a b : FVec Ideal S φ} (ha : AllReal a) (hb : AllReal b) : AllReal (mulf a b) := fun i => by
  obtain ⟨r, hr⟩ := ha i
  obtain ⟨t, ht⟩ := hb i
  exact ⟨r * t, by show a i * b i = _; rw [hr, ht, EReal.coe_mul]⟩

/-- The entrywise maximum of two arrays of reals is an array of reals: at each entry it is one of the two. -/
theorem maximumf_allReal {a b : FVec Ideal S φ} (ha : AllReal a) (hb : AllReal b) : AllReal (maximumf a b) := fun i => by
  show ∃ r : ℝ, max (a i) (b i) = (r : EReal)
  rcases le_total (a i) (b i) with h | h
  · rw [max_eq_right h]; exact hb i
  · rw [max_eq_left h]; exact ha i

/-- The entrywise maximum with an array of positive reals is positive when the other array is real. -/
theorem maximumf_allPos_right {a b : FVec Ideal S φ} (ha : AllReal a) (hb : AllPos b) : AllPos (maximumf a b) := fun i => by
  show ∃ r : ℝ, 0 < r ∧ max (a i) (b i) = (r : EReal)
  obtain ⟨r, hr⟩ := ha i
  obtain ⟨t, ht0, ht⟩ := hb i
  refine ⟨max r t, lt_max_of_lt_right ht0, ?_⟩
  rw [hr, ht]
  rcases le_total r t with h | h
  · rw [max_eq_right h, max_eq_right (EReal.coe_le_coe_iff.mpr h)]
  · rw [max_eq_left h, max_eq_left (EReal.coe_le_coe_iff.mpr h)]

/-- Choosing entry by entry between two arrays of reals gives an array of reals. -/
theorem select_allReal (p : IVec S 1) {a b : S.Idx → EReal} (ha : AllReal a) (hb : AllReal b) :
    AllReal (select p a b) := fun i => by
  show ∃ r : ℝ, (if p i = 1 then a i else b i) = (r : EReal)
  split
  · exact ha i
  · exact hb i

/-- The entrywise quotient of an array of reals by an array of nonzero reals is an array of reals. -/
theorem divf_allReal {a b : FVec Ideal S φ} (ha : AllReal a) (hb : AllNonzero b) :
    AllReal (Host.divf (F := Ideal) a b) := fun i => by
  obtain ⟨r, hr⟩ := ha i
  obtain ⟨t, ht0, ht⟩ := hb i
  refine ⟨r * (1 / t), ?_⟩
  show Ideal.div (a i) (b i) = _
  rw [hr, ht, Ideal.div_coe ht0, EReal.coe_mul]

/-- The entrywise reciprocal square root of an array of positive reals is an array of positive reals. -/
theorem rsqrt_allPos {a : FVec Ideal S φ} (ha : AllPos a) : AllPos (Host.rsqrt (F := Ideal) a) := fun i => by
  obtain ⟨r, hr0, hr⟩ := ha i
  refine ⟨(Real.sqrt r)⁻¹, inv_pos.mpr (Real.sqrt_pos.mpr hr0), ?_⟩
  show Ideal.rsqrt (a i) = _
  rw [hr, Ideal.rsqrt_coe, if_neg (not_lt.mpr hr0.le), if_neg hr0.ne']

/-- The entrywise reciprocal square root of an array of positive reals is an array of reals. -/
theorem rsqrt_allReal {a : FVec Ideal S φ} (ha : AllPos a) : AllReal (Host.rsqrt (F := Ideal) a) :=
  (rsqrt_allPos ha).allReal

/-- An array of reals that are at least zero plus an array of positive reals is an array of positive reals. -/
theorem addf_allPos_of_nonneg {a b : FVec Ideal S φ} (ha : ∀ i, ∃ r : ℝ, 0 ≤ r ∧ a i = (r : EReal)) (hb : AllPos b) :
    AllPos (addf a b) := fun i => by
  obtain ⟨r, hr0, hr⟩ := ha i
  obtain ⟨t, ht0, ht⟩ := hb i
  exact ⟨r + t, by linarith, by show a i + b i = _; rw [hr, ht, EReal.coe_add]⟩

end Pointwise

/-! ## Re-indexings: every entry of the result is an entry of the operand -/

section Layout
variable {S T : Shape}

/-- Reading an array of reals through any map of indices gives an array of reals. -/
theorem comp_allReal {a : S.Idx → EReal} (ha : AllReal a) (f : T.Idx → S.Idx) : AllReal (fun j => a (f j)) :=
  fun j => ha (f j)

/-- Repeating an array of reals along new axes gives an array of reals. -/
theorem broadcastInDim_allReal (dims : Fin S.rank → Fin T.rank) (h : S.BroadcastsInDim T dims) {a : S.Idx → EReal}
    (ha : AllReal a) : AllReal (broadcastInDim T dims h a) := fun _ => ha _

/-- Repeating an array of positive reals along new axes gives an array of positive reals. -/
theorem broadcastInDim_allPos (dims : Fin S.rank → Fin T.rank) (h : S.BroadcastsInDim T dims) {a : S.Idx → EReal}
    (ha : AllPos a) : AllPos (broadcastInDim T dims h a) := fun _ => ha _

/-- Repeating an array of nonzero reals along new axes gives an array of nonzero reals. -/
theorem broadcastInDim_allNonzero (dims : Fin S.rank → Fin T.rank) (h : S.BroadcastsInDim T dims) {a : S.Idx → EReal}
    (ha : AllNonzero a) : AllNonzero (broadcastInDim T dims h a) := fun _ => ha _

/-- The same entries of an array of reals under another shape are an array of reals. -/
theorem shapeCast_allReal (h : S.ShapeCasts T) {a : S.Idx → EReal} (ha : AllReal a) : AllReal (shapeCast T a h) :=
  fun _ => ha _

/-- A block cut out of an array of reals is an array of reals. -/
theorem extractStridedSlice_allReal (off : Fin S.rank → Nat) (h : S.Slices off T) {a : S.Idx → EReal} (ha : AllReal a) :
    AllReal (extractStridedSlice T off a h) := fun _ => ha _

/-- Rows, or any slices, taken out of an array of reals by an index array are an array of reals, whatever the
    indices: each entry taken is an entry of the operand. -/
theorem gather_allReal {SI : Shape} {w : Nat} (d : GatherDims S SI T) (idx : IVec SI w) {a : S.Idx → EReal}
    (ha : AllReal a) : AllReal (Host.gather d a idx) := fun _ => ha _

end Layout

/-! ## Constants -/

/-- A constant array whose bit pattern denotes a real number is an array of reals. -/
theorem constant_allReal (S : Shape) (φ : FTy) (w : BitVec φ.bits) {r : ℝ} (h : Ideal.ofBits φ w = (r : EReal)) :
    AllReal (constant (F := Ideal) S φ w) := fun _ => ⟨r, h⟩

/-- A constant array whose bit pattern denotes a positive real number is an array of positive reals. -/
theorem constant_allPos (S : Shape) (φ : FTy) (w : BitVec φ.bits) {r : ℝ} (hr : 0 < r) (h : Ideal.ofBits φ w = (r : EReal)) :
    AllPos (constant (F := Ideal) S φ w) := fun _ => ⟨r, hr, h⟩

/-- The single-precision pattern of `+0.0` denotes `0`. -/
theorem ofBits_zero : Ideal.ofBits .f32 0x00000000#32 = ((0 : ℝ) : EReal) := by
  simp [Ideal.ofBits, Ideal.ieee]

/-- The single-precision pattern of `1.0` (biased exponent 127, significand 1) denotes `1`. -/
theorem ofBits_one : Ideal.ofBits .f32 0x3F800000#32 = ((1 : ℝ) : EReal) := by
  simp [Ideal.ofBits, Ideal.ieee, -EReal.coe_mul]; norm_num

/-- The single-precision pattern `0x47435000` (biased exponent 142, significand `12800000 / 2^23`) denotes
    `12800000 / 2^8 = 50000`. -/
theorem ofBits_50000 : Ideal.ofBits .f32 0x47435000#32 = ((50000 : ℝ) : EReal) := by
  simp [Ideal.ofBits, Ideal.ieee, -EReal.coe_mul]; norm_num

/-- The single-precision pattern `0x3727C5AC` (biased exponent 110, significand `10995116 / 2^23`), the float
    nearest `10^-5`, denotes the rational `10995116 / 2^40`. -/
theorem ofBits_eps : Ideal.ofBits .f32 0x3727C5AC#32 = ((10995116 / 2 ^ 40 : ℝ) : EReal) := by
  simp [Ideal.ofBits, Ideal.ieee, -EReal.coe_mul]; norm_num

/-- That rational is positive. -/
theorem eps_pos : (0 : ℝ) < 10995116 / 2 ^ 40 := by norm_num

/-! ## Finite sums: a sum along axes, a matrix product, an accumulation of updates -/

/-- A real number plus a finite sum of real numbers, taken in the extended reals, is a real number. -/
theorem exists_real_add_sum {ι : Type} (s : Finset ι) (c : EReal) (f : ι → EReal) (hc : ∃ r : ℝ, c = (r : EReal))
    (h : ∀ k ∈ s, ∃ r : ℝ, f k = (r : EReal)) : ∃ r : ℝ, c + ∑ k ∈ s, f k = (r : EReal) := by
  obtain ⟨r0, hr0⟩ := hc
  obtain ⟨r, hr⟩ := exists_real_sum s f h
  exact ⟨r0 + r, by rw [hr0, hr, EReal.coe_add]⟩

/-- The sum of an array of reals along any set of axes, started from a real initial value, is an array of reals:
    each entry is the initial value plus a finite sum of entries of the operand. -/
theorem reduceAdd_allReal {S T V : Shape} {φ : FTy} {axes : List (Fin S.rank)} {x : FVec Ideal S φ} {init : V.Idx → Ideal φ}
    (hx : AllReal x) (hinit : AllReal init) (h : S.ReducesTo axes T) (hv : 0 < V.numel) :
    AllReal (Host.reduceAdd (F := Ideal) x init h hv) := fun j => by
  show ∃ t : ℝ, Ideal.hostReduceAdd h x (init (Shape.Idx.first hv)) j = (t : EReal)
  unfold Ideal.hostReduceAdd
  exact exists_real_add_sum _ _ _ (hinit _) fun k _ => hx k

/-- The same for the sum a tiled program takes along axes of a block: each entry is a finite sum of entries of the
    operand. -/
theorem multiReduction_add_allReal {S T : Shape} {φ : FTy} {axes : List (Fin S.rank)} {x : FVec Ideal S φ} (hx : AllReal x)
    (acc : BitVec φ.bits) (h : S.Reduces axes T) (hφ : FKind.Formats φ) (hacc : acc = FKind.add.neutral φ hφ) :
    AllReal (multiReduction .add axes T x acc h hφ hacc) := fun j => by
  show ∃ t : ℝ, Ideal.reduceAdd h x j = (t : EReal)
  unfold Ideal.reduceAdd
  exact exists_real_sum _ _ fun k _ => hx k

/-- A product of two arrays of reals contracted over any axes is an array of reals: each entry is a finite sum of
    products of an entry of the one with an entry of the other. -/
theorem dotGeneral_allReal {SL SR SO : Shape} {φ₁ φ₂ : FTy} (d : DotDims SL SR SO) (prec : Option ContractPrecision)
    {l : FVec Ideal SL φ₁} {r : FVec Ideal SR φ₂} (hl : AllReal l) (hr : AllReal r) :
    AllReal (Host.dotGeneral (F := Ideal) d prec l r) := fun j => by
  show ∃ t : ℝ, FloatOps.dotGeneral d prec .single l r j = (t : EReal)
  rw [Ideal.dotGeneral_apply]
  refine exists_real_sum _ _ fun k _ => ?_
  obtain ⟨a, ha⟩ := hl (d.lhsIdx j k)
  obtain ⟨b, hb⟩ := hr (d.rhsIdx j k)
  exact ⟨a * b, by rw [ha, hb, EReal.coe_mul]⟩

/-- The same product added to an array of reals, as a tiled program accumulates it, is an array of reals. -/
theorem matmul_allReal {SL SR SO : Shape} {φ₁ φ₂ : FTy} (d : DotDims SL SR SO) (prec : Option ContractPrecision)
    {l : FVec Ideal SL φ₁} {r : FVec Ideal SR φ₂} {acc : FVec Ideal SO .f32} (hl : AllReal l) (hr : AllReal r)
    (hacc : AllReal acc) : AllReal (matmul (F := Ideal) d prec l r acc) := fun j => by
  show ∃ t : ℝ, FloatOps.matmul d prec l r acc j = (t : EReal)
  rw [Ideal.matmul_apply]
  refine exists_real_add_sum _ _ _ (hacc j) fun k _ => ?_
  obtain ⟨a, ha⟩ := hl (d.lhsIdx j k)
  obtain ⟨b, hb⟩ := hr (d.rhsIdx j k)
  exact ⟨a * b, by rw [ha, hb, EReal.coe_mul]⟩

/-- Accumulating an array of real updates into an array of reals at the places an index array names gives an array
    of reals, whatever the indices: each entry is the operand's entry plus the finite sum of the updates that
    land on it. -/
theorem scatterAdd_allReal {S SI SU : Shape} {φ : FTy} {w : Nat} (d : ScatterDims S SI SU) (idx : IVec SI w)
    {x : FVec Ideal S φ} {u : FVec Ideal SU φ} (hx : AllReal x) (hu : AllReal u) :
    AllReal (Host.scatterAdd (F := Ideal) d x idx u) := fun i => by
  show ∃ t : ℝ, Ideal.hostScatterAdd d x idx u i = (t : EReal)
  unfold Ideal.hostScatterAdd
  exact exists_real_add_sum _ _ _ (hx i) fun k _ => hu k

/-! ## Integers read as floats, and a choice whose condition is known -/

/-- A signed integer array read as floats is an array of reals: each entry is the integer itself. -/
theorem sitofp_allReal {S : Shape} {w : Nat} (φ : FTy) (x : IVec S w) : AllReal (sitofp (F := Ideal) φ x) :=
  fun i => ⟨((x i).toInt : ℝ), rfl⟩

/-- An unsigned integer array read as floats is an array of reals: each entry is the integer itself. -/
theorem uitofp_allReal {S : Shape} {w : Nat} (φ : FTy) (x : IVec S w) : AllReal (uitofp (F := Ideal) φ x) :=
  fun i => ⟨((x i).toNat : ℝ), rfl⟩

/-- The entrywise negative of an array of reals is an array of reals. -/
theorem negf_allReal {S : Shape} {φ : FTy} {a : FVec Ideal S φ} (ha : AllReal a) : AllReal (negf a) := fun i => by
  obtain ⟨r, hr⟩ := ha i
  exact ⟨-r, by show -(a i) = _; rw [hr, EReal.coe_neg]⟩

/-- Where the condition holds at every entry, the choice is its first array. -/
theorem select_of_true {S : Shape} {α : Type} {p : IVec S 1} (hp : ∀ i, p i = 1) (a b : S.Idx → α) : select p a b = a :=
  funext fun i => show (if p i = 1 then a i else b i) = a i from if_pos (hp i)

/-- Where the condition fails at every entry, the choice is its second array. -/
theorem select_of_false {S : Shape} {α : Type} {p : IVec S 1} (hp : ∀ i, p i ≠ 1) (a b : S.Idx → α) : select p a b = b :=
  funext fun i => show (if p i = 1 then a i else b i) = b i from if_neg (hp i)

/-- So such a choice is an array of reals as soon as its first array is, whatever the second holds. -/
theorem select_allReal_of_true {S : Shape} {p : IVec S 1} (hp : ∀ i, p i = 1) {a : S.Idx → EReal} (b : S.Idx → EReal)
    (ha : AllReal a) : AllReal (select p a b) := by
  rw [select_of_true hp]; exact ha

/-- The comparison `x > y` answers `1` at an entry where `y` is below `x`. -/
theorem cmpf_ogt_eq_one {S : Shape} {φ : FTy} {x y : FVec Ideal S φ} {i : S.Idx} (h : y i < x i) :
    cmpf (F := Ideal) .ogt x y i = 1 := by
  show BitVec.ofBool (decide (y i < x i)) = 1
  simp [h]

/-! ## Signs: arrays of reals that are at least zero -/

/-- Every entry of the array is a real number that is at least zero. -/
def AllNonneg {S : Shape} (a : S.Idx → EReal) : Prop := ∀ i, ∃ r : ℝ, 0 ≤ r ∧ a i = (r : EReal)

/-- Positive reals are at least zero. -/
theorem AllPos.allNonneg {S : Shape} {a : S.Idx → EReal} (h : AllPos a) : AllNonneg a := fun i => by
  obtain ⟨r, hr, e⟩ := h i
  exact ⟨r, hr.le, e⟩

/-- Reals that are at least zero are reals. -/
theorem AllNonneg.allReal {S : Shape} {a : S.Idx → EReal} (h : AllNonneg a) : AllReal a := fun i => by
  obtain ⟨r, _, e⟩ := h i
  exact ⟨r, e⟩

/-- A finite sum of extended reals each of which is a real at least zero is a real at least zero. -/
theorem exists_nonneg_sum {ι : Type} (s : Finset ι) (f : ι → EReal) (h : ∀ k ∈ s, ∃ r : ℝ, 0 ≤ r ∧ f k = (r : EReal)) :
    ∃ r : ℝ, 0 ≤ r ∧ ∑ k ∈ s, f k = (r : EReal) := by
  classical
  choose! g hg0 hg using h
  exact ⟨∑ k ∈ s, g k, Finset.sum_nonneg hg0, by rw [coe_finset_sum]; exact Finset.sum_congr rfl hg⟩

/-- A real at least zero plus such a sum is a real at least zero. -/
theorem exists_nonneg_add_sum {ι : Type} (s : Finset ι) (c : EReal) (f : ι → EReal)
    (hc : ∃ r : ℝ, 0 ≤ r ∧ c = (r : EReal)) (h : ∀ k ∈ s, ∃ r : ℝ, 0 ≤ r ∧ f k = (r : EReal)) :
    ∃ r : ℝ, 0 ≤ r ∧ c + ∑ k ∈ s, f k = (r : EReal) := by
  obtain ⟨r0, h0, hr0⟩ := hc
  obtain ⟨r, h1, hr⟩ := exists_nonneg_sum s f h
  exact ⟨r0 + r, add_nonneg h0 h1, by rw [hr0, hr, EReal.coe_add]⟩

section Signs
variable {S : Shape} {φ : FTy}

/-- A constant array whose bit pattern denotes a real at least zero is an array of such reals. -/
theorem constant_allNonneg (S : Shape) (φ : FTy) (w : BitVec φ.bits) {r : ℝ} (hr : 0 ≤ r)
    (h : Ideal.ofBits φ w = (r : EReal)) : AllNonneg (constant (F := Ideal) S φ w) := fun _ => ⟨r, hr, h⟩

/-- Repeating an array of reals at least zero along new axes gives an array of reals at least zero. -/
theorem broadcastInDim_allNonneg {T : Shape} (dims : Fin S.rank → Fin T.rank) (h : S.BroadcastsInDim T dims)
    {a : S.Idx → EReal} (ha : AllNonneg a) : AllNonneg (broadcastInDim T dims h a) := fun _ => ha _

/-- The sum of two arrays of reals at least zero is an array of reals at least zero. -/
theorem addf_allNonneg {a b : FVec Ideal S φ} (ha : AllNonneg a) (hb : AllNonneg b) : AllNonneg (addf a b) := fun i => by
  obtain ⟨r, hr0, hr⟩ := ha i
  obtain ⟨t, ht0, ht⟩ := hb i
  exact ⟨r + t, add_nonneg hr0 ht0, by show a i + b i = _; rw [hr, ht, EReal.coe_add]⟩

/-- The product of two arrays of reals at least zero is an array of reals at least zero. -/
theorem mulf_allNonneg {a b : FVec Ideal S φ} (ha : AllNonneg a) (hb : AllNonneg b) : AllNonneg (mulf a b) := fun i => by
  obtain ⟨r, hr0, hr⟩ := ha i
  obtain ⟨t, ht0, ht⟩ := hb i
  exact ⟨r * t, mul_nonneg hr0 ht0, by show a i * b i = _; rw [hr, ht, EReal.coe_mul]⟩

/-- The entrywise square of an array of reals is an array of reals at least zero. -/
theorem mulf_self_allNonneg {a : FVec Ideal S φ} (ha : AllReal a) : AllNonneg (mulf a a) := fun i => by
  obtain ⟨r, hr⟩ := ha i
  exact ⟨r * r, mul_self_nonneg r, by show a i * a i = _; rw [hr, EReal.coe_mul]⟩

/-- The entrywise maximum of an array of reals with an array of reals at least zero is at least zero: the rectifier
    `max x 0` among them. -/
theorem maximumf_allNonneg_right {a b : FVec Ideal S φ} (ha : AllReal a) (hb : AllNonneg b) :
    AllNonneg (maximumf a b) := fun i => by
  show ∃ r : ℝ, 0 ≤ r ∧ max (a i) (b i) = (r : EReal)
  obtain ⟨r, hr⟩ := ha i
  obtain ⟨t, ht0, ht⟩ := hb i
  refine ⟨max r t, le_max_of_le_right ht0, ?_⟩
  rw [hr, ht]
  rcases le_total r t with h | h
  · rw [max_eq_right h, max_eq_right (EReal.coe_le_coe_iff.mpr h)]
  · rw [max_eq_left h, max_eq_left (EReal.coe_le_coe_iff.mpr h)]

/-- The quotient of an array of reals at least zero by an array of positive reals is an array of reals at least
    zero. -/
theorem divf_allNonneg {a b : FVec Ideal S φ} (ha : AllNonneg a) (hb : AllPos b) :
    AllNonneg (Host.divf (F := Ideal) a b) := fun i => by
  obtain ⟨r, hr0, hr⟩ := ha i
  obtain ⟨t, ht0, ht⟩ := hb i
  refine ⟨r * (1 / t), mul_nonneg hr0 (one_div_pos.mpr ht0).le, ?_⟩
  show Ideal.div (a i) (b i) = _
  rw [hr, ht, Ideal.div_coe ht0.ne', EReal.coe_mul]

/-- The sum of an array of reals at least zero along any axes, started from a real at least zero, is an array of
    reals at least zero. -/
theorem reduceAdd_allNonneg {T V : Shape} {axes : List (Fin S.rank)} {x : FVec Ideal S φ} {init : V.Idx → Ideal φ}
    (hx : AllNonneg x) (hinit : AllNonneg init) (h : S.ReducesTo axes T) (hv : 0 < V.numel) :
    AllNonneg (Host.reduceAdd (F := Ideal) x init h hv) := fun j => by
  show ∃ t : ℝ, 0 ≤ t ∧ Ideal.hostReduceAdd h x (init (Shape.Idx.first hv)) j = (t : EReal)
  unfold Ideal.hostReduceAdd
  exact exists_nonneg_add_sum _ _ _ (hinit _) fun k _ => hx k

/-- Accumulating updates that are reals at least zero into an array of reals at least zero gives an array of reals
    at least zero, whatever the indices: a count of how many updates land on each entry among them. -/
theorem scatterAdd_allNonneg {SI SU : Shape} {w : Nat} (d : ScatterDims S SI SU) (idx : IVec SI w)
    {x : FVec Ideal S φ} {u : FVec Ideal SU φ} (hx : AllNonneg x) (hu : AllNonneg u) :
    AllNonneg (Host.scatterAdd (F := Ideal) d x idx u) := fun i => by
  show ∃ t : ℝ, 0 ≤ t ∧ Ideal.hostScatterAdd d x idx u i = (t : EReal)
  unfold Ideal.hostScatterAdd
  exact exists_nonneg_add_sum _ _ _ (hx i) fun k _ => hu k

end Signs

end Cert.LibReal

end
-- ==== Proof.LibLayout.lean ====
/-
  Two ways to write a vector as a matrix with one unit axis. A vector of n entries as a 1 x n row is the same array
  whether it is reshaped or broadcast along axis 1: entry (0, j) is entry j. As an n x 1 column it is the same whether
  reshaped or broadcast along axis 0: entry (i, 0) is entry i. In each case the row-major position of the matrix
  entry is the vector's index, because the other axis has length 1.
-/
import Idealize.ShloMosaic.Lib.Pipeline.Value
import Idealize.ShloMosaic.Lib.ValueIdx

namespace Cert.Proof.Layout

open Idealize.ShloMosaic Idealize.ShloMosaic.ValueIdx

variable {α : Type}

/-- A vector of n entries as a 1 x n row: the reshape is the broadcast along axis 1. -/
theorem reshape_row_eq_broadcastInDim {n : Nat} (x : (⟨1, ![n]⟩ : Shape).Idx → α)
    (h : (⟨1, ![n]⟩ : Shape).ShapeCasts ⟨2, ![1, n]⟩)
    (hd : (⟨1, ![n]⟩ : Shape).BroadcastsInDim ⟨2, ![1, n]⟩ ![1]) :
    shapeCast ⟨2, ![1, n]⟩ x h = broadcastInDim ⟨2, ![1, n]⟩ ![1] hd x := by
  funext i
  have h0 : (i 0).val < 1 := (i 0).isLt
  have h1 : (i 1).val < n := (i 1).isLt
  have e2 := shapeCast_apply x h i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · omega
      · rfl)
  exact e2.trans e3.symm

/-- A vector of n entries as an n x 1 column: the reshape is the broadcast along axis 0. -/
theorem reshape_col_eq_broadcastInDim {n : Nat} (x : (⟨1, ![n]⟩ : Shape).Idx → α)
    (h : (⟨1, ![n]⟩ : Shape).ShapeCasts ⟨2, ![n, 1]⟩)
    (hd : (⟨1, ![n]⟩ : Shape).BroadcastsInDim ⟨2, ![n, 1]⟩ ![0]) :
    shapeCast ⟨2, ![n, 1]⟩ x h = broadcastInDim ⟨2, ![n, 1]⟩ ![0] hd x := by
  funext i
  have h0 : (i 0).val < n := (i 0).isLt
  have h1 : (i 1).val < 1 := (i 1).isLt
  have e2 := shapeCast_apply x h i (ix1 (i 0 : Fin n)) (by
    rw [Shape.rowMajor_val_two, Shape.rowMajor_val_one]
    show (i 0).val = (i 0).val * 1 + (i 1).val
    omega)
  have e3 := broadcastInDim_apply ![0] hd x i (ix1 (i 0 : Fin n)) (by
    intro a
    match a with
    | ⟨0, _⟩ =>
      show (i 0).val = if n = 1 then 0 else (i 0).val
      split
      · omega
      · rfl)
  exact e2.trans e3.symm

end Cert.Proof.Layout
-- ==== Proof.LibSageLayer.lean ====
/-
  ONE GRAPH-CONVOLUTION LAYER (mean aggregation), IN TWO ARRANGEMENTS, AT THE EXTENDED REALS.

  A node i has a row x(i, ·) of K features, a row agg(i, ·) of the summed features of its in-neighbours and a
  count d(i) ≥ 1 (the in-degree, raised to one where it is zero).  The layer sends node i to the row

      j ↦ Σ_k mean(i, k) · wl(k, j)  +  Σ_k x(i, k) · wr(k, j)  +  b(j),        mean(i, k) = agg(i, k) / d(i),

  optionally followed by the rectifier max(·, 0).

  The tiled program forms mean as agg(i, k) · (1 / d(i)), adds the two products first and the bias last; the array
  program divides agg(i, k) by d(i), adds the bias to the first product and the second product last.  Since d(i) is a
  nonzero real, a / d(i) = a · (1 / d(i)) for EVERY extended real a (infinite ones included), and the three summands
  are only re-associated: no distributive law is used, so nothing is asked of x, agg or the weights.
-/
import proofs.«136383_j28862180229417_1_alg».proof.Proof.LibBlocks
import proofs.«136383_j28862180229417_1_alg».proof.Proof.LibDenseLayer
import proofs.«136383_j28862180229417_1_alg».proof.Proof.LibReal
import proofs.«136383_j28862180229417_1_alg».proof.Proof.LibLayout

noncomputable section

open scoped BigOperators

namespace Cert.SageLayer

open Idealize.ShloMosaic Idealize.ShloMosaic.ValueIdx Cert.LibReal

variable {n N K M : Nat}

/-- Entry (i, j) of the layer as the tiled program arranges it: both products, then the bias row's entry j. -/
def entry (mean x : FVec Ideal ⟨2, ![N, K]⟩ .f32) (wl wr : FVec Ideal ⟨2, ![K, M]⟩ .f32) (b : FVec Ideal ⟨2, ![1, M]⟩ .f32)
    (i : Fin N) (j : Fin M) : EReal :=
  (∑ k : Fin K, mean (ix2 i k) * wl (ix2 k j) + ∑ k : Fin K, x (ix2 i k) * wr (ix2 k j)) + b (ix2 (0 : Fin 1) j)

/-- The layer without rectifier, as one array. -/
def linear (mean x : FVec Ideal ⟨2, ![N, K]⟩ .f32) (wl wr : FVec Ideal ⟨2, ![K, M]⟩ .f32) (b : FVec Ideal ⟨2, ![1, M]⟩ .f32) :
    FVec Ideal ⟨2, ![N, M]⟩ .f32 := fun i => entry mean x wl wr b (i 0) (i 1)

/-- The layer with rectifier, as one array. -/
def hidden (mean x : FVec Ideal ⟨2, ![N, K]⟩ .f32) (wl wr : FVec Ideal ⟨2, ![K, M]⟩ .f32) (b : FVec Ideal ⟨2, ![1, M]⟩ .f32) :
    FVec Ideal ⟨2, ![N, M]⟩ .f32 := fun i => max (entry mean x wl wr b (i 0) (i 1)) (Ideal.ofBits .f32 0x00000000#32)

/-! ## A block of rows: the tiled body at one entry -/

/-- The body without rectifier on a block of n rows, at entry (p, q): the layer's entry on the block's rows. -/
theorem linear_body_entry
    (dk : DotDims ⟨2, ![n, K]⟩ ⟨2, ![K, M]⟩ ⟨2, ![n, M]⟩) (hdk : dk = DotDims.plain n K M)
    (hlt : FTy.bf16.bits < FTy.f32.bits)
    (hc1 : (⟨2, ![1, M]⟩ : Shape).ShapeCasts ⟨2, ![1, M]⟩) (hb : (⟨2, ![1, M]⟩ : Shape).Broadcasts ⟨2, ![n, M]⟩)
    (x0 x1 : FVec Ideal ⟨2, ![n, K]⟩ .f32) (w0 w1 : FVec Ideal ⟨2, ![K, M]⟩ .f32) (c : FVec Ideal ⟨2, ![1, M]⟩ .f32)
    (p : Fin n) (q : Fin M) :
    addf (addf (matmul dk none (truncf .bf16 x0 hlt) (truncf .bf16 w0 hlt) (constant ⟨2, ![n, M]⟩ .f32 0x00000000#32))
          (matmul dk none (truncf .bf16 x1 hlt) (truncf .bf16 w1 hlt) (constant ⟨2, ![n, M]⟩ .f32 0x00000000#32)))
        (broadcastTo ⟨2, ![n, M]⟩ (shapeCast ⟨2, ![1, M]⟩ c hc1) hb) (ix2 p q)
      = entry x0 x1 w0 w1 c p q := by
  rw [addf_apply, addf_apply, Cert.LibDenseLayer.bias_block_entry hc1 hb c p q]
  show (FloatOps.matmul dk none _ _ _ _ + FloatOps.matmul dk none _ _ _ _) + _ = _
  rw [Cert.LibBlocks.matmul_plain_apply dk hdk, Cert.LibBlocks.matmul_plain_apply dk hdk]
  rfl

/-- The body with rectifier on a block of n rows, at entry (p, q). -/
theorem hidden_body_entry
    (dk : DotDims ⟨2, ![n, K]⟩ ⟨2, ![K, M]⟩ ⟨2, ![n, M]⟩) (hdk : dk = DotDims.plain n K M)
    (hlt : FTy.bf16.bits < FTy.f32.bits)
    (hc1 : (⟨2, ![1, M]⟩ : Shape).ShapeCasts ⟨2, ![1, M]⟩) (hb : (⟨2, ![1, M]⟩ : Shape).Broadcasts ⟨2, ![n, M]⟩)
    (x0 x1 : FVec Ideal ⟨2, ![n, K]⟩ .f32) (w0 w1 : FVec Ideal ⟨2, ![K, M]⟩ .f32) (c : FVec Ideal ⟨2, ![1, M]⟩ .f32)
    (p : Fin n) (q : Fin M) :
    maximumf (addf (addf (matmul dk none (truncf .bf16 x0 hlt) (truncf .bf16 w0 hlt) (constant ⟨2, ![n, M]⟩ .f32 0x00000000#32))
          (matmul dk none (truncf .bf16 x1 hlt) (truncf .bf16 w1 hlt) (constant ⟨2, ![n, M]⟩ .f32 0x00000000#32)))
        (broadcastTo ⟨2, ![n, M]⟩ (shapeCast ⟨2, ![1, M]⟩ c hc1) hb))
        (broadcast ⟨2, ![n, M]⟩ (Scalar.ofBits (F := Ideal) .f32 0x00000000#32)) (ix2 p q)
      = max (entry x0 x1 w0 w1 c p q) (Ideal.ofBits .f32 0x00000000#32) := by
  rw [maximumf_apply, linear_body_entry dk hdk hlt hc1 hb x0 x1 w0 w1 c p q]
  rfl

/-- The layer's entry reads only row i of its two row arrays: equal rows give equal entries. -/
theorem entry_congr_rows (mean x : FVec Ideal ⟨2, ![n, K]⟩ .f32) (mean' x' : FVec Ideal ⟨2, ![N, K]⟩ .f32)
    (wl wr : FVec Ideal ⟨2, ![K, M]⟩ .f32) (b : FVec Ideal ⟨2, ![1, M]⟩ .f32) (p : Fin n) (r : Fin N)
    (hm : ∀ k : Fin K, mean (ix2 p k) = mean' (ix2 r k)) (hx : ∀ k : Fin K, x (ix2 p k) = x' (ix2 r k)) (q : Fin M) :
    entry mean x wl wr b p q = entry mean' x' wl wr b r q := by
  unfold entry
  have e1 : ∀ k : Fin K, mean (ix2 p k) * wl (ix2 k q) = mean' (ix2 r k) * wl (ix2 k q) := fun k => by rw [hm k]
  have e2 : ∀ k : Fin K, x (ix2 p k) * wr (ix2 k q) = x' (ix2 r k) * wr (ix2 k q) := fun k => by rw [hx k]
  rw [Finset.sum_congr rfl fun k _ => e1 k, Finset.sum_congr rfl fun k _ => e2 k]

/-! ## The two arrangements agree -/

/-- The reciprocal of the count, kept as a column and repeated along the rows, at entry (i, k): 1 / d(i). -/
theorem recip_col_entry (d : FVec Ideal ⟨1, ![N]⟩ .f32)
    (h1 : (⟨2, ![N, 1]⟩ : Shape).BroadcastsInDim ⟨2, ![N, K]⟩ ![0, 1])
    (h5 : (⟨1, ![N]⟩ : Shape).ShapeCasts ⟨2, ![N, 1]⟩) (h2 : (⟨1, ![N]⟩ : Shape).BroadcastsInDim ⟨2, ![N, 1]⟩ ![0])
    (i : Fin N) (k : Fin K) :
    broadcastInDim ⟨2, ![N, K]⟩ ![0, 1] h1 (shapeCast ⟨2, ![N, 1]⟩ d h5) (ix2 i k) = d (ix1 i) := by
  rw [Cert.Proof.Layout.reshape_col_eq_broadcastInDim d h5 h2]
  rw [broadcastInDim_apply ![0, 1] h1 _ (ix2 i k) (ix2 i (0 : Fin 1)) (fun a => by
    match a with
    | ⟨0, _⟩ =>
      show i.val = if N = 1 then 0 else i.val
      have := i.isLt
      split_ifs <;> omega
    | ⟨1, _⟩ => rfl)]
  exact broadcastInDim_apply ![0] h2 d (ix2 i (0 : Fin 1)) (ix1 i) (fun a => by
    match a with
    | ⟨0, _⟩ =>
      show i.val = if N = 1 then 0 else i.val
      have := i.isLt
      split_ifs <;> omega)

/-- The count, made a column and repeated along the rows, at entry (i, k): d(i). -/
theorem count_col_entry (d : FVec Ideal ⟨1, ![N]⟩ .f32)
    (h1 : (⟨2, ![N, 1]⟩ : Shape).BroadcastsInDim ⟨2, ![N, K]⟩ ![0, 1])
    (h2 : (⟨1, ![N]⟩ : Shape).BroadcastsInDim ⟨2, ![N, 1]⟩ ![0])
    (i : Fin N) (k : Fin K) :
    broadcastInDim ⟨2, ![N, K]⟩ ![0, 1] h1 (broadcastInDim ⟨2, ![N, 1]⟩ ![0] h2 d) (ix2 i k) = d (ix1 i) := by
  rw [broadcastInDim_apply ![0, 1] h1 _ (ix2 i k) (ix2 i (0 : Fin 1)) (fun a => by
    match a with
    | ⟨0, _⟩ =>
      show i.val = if N = 1 then 0 else i.val
      have := i.isLt
      split_ifs <;> omega
    | ⟨1, _⟩ => rfl)]
  exact broadcastInDim_apply ![0] h2 d (ix2 i (0 : Fin 1)) (ix1 i) (fun a => by
    match a with
    | ⟨0, _⟩ =>
      show i.val = if N = 1 then 0 else i.val
      have := i.isLt
      split_ifs <;> omega)

/-- Multiplying by the reciprocal of a nonzero real count is dividing by it, for every extended real. -/
theorem mul_recip_eq_div (a : EReal) {t : ℝ} (ht : t ≠ 0) :
    a * Ideal.div (Ideal.ofBits .f32 0x3F800000#32) (t : EReal) = Ideal.div a (t : EReal) := by
  rw [Ideal.div_coe ht, Ideal.div_coe ht, ofBits_one, ← EReal.coe_mul, one_mul]

/-- The mean as the tiled program forms it (agg times the reciprocal column) is the mean as the array program forms it
    (agg divided by the count column), when every count is a nonzero real. -/
theorem mean_eq (agg : FVec Ideal ⟨2, ![N, K]⟩ .f32) (d : FVec Ideal ⟨1, ![N]⟩ .f32) (hd : AllNonzero d)
    (h1 : (⟨2, ![N, 1]⟩ : Shape).BroadcastsInDim ⟨2, ![N, K]⟩ ![0, 1])
    (h2 : (⟨1, ![N]⟩ : Shape).BroadcastsInDim ⟨2, ![N, 1]⟩ ![0])
    (h5 : (⟨1, ![N]⟩ : Shape).ShapeCasts ⟨2, ![N, 1]⟩)
    (h7 : (⟨0, ![]⟩ : Shape).BroadcastsInDim ⟨1, ![N]⟩ ![]) :
    mulf agg (broadcastInDim ⟨2, ![N, K]⟩ ![0, 1] h1 (shapeCast ⟨2, ![N, 1]⟩
        (Host.divf (F := Ideal) (broadcastInDim ⟨1, ![N]⟩ ![] h7 (constant (F := Ideal) ⟨0, ![]⟩ .f32 0x3F800000#32)) d) h5))
      = Host.divf (F := Ideal) agg (broadcastInDim ⟨2, ![N, K]⟩ ![0, 1] h1 (broadcastInDim ⟨2, ![N, 1]⟩ ![0] h2 d)) := by
  funext idx
  obtain ⟨i, k, rfl⟩ : ∃ (i : Fin N) (k : Fin K), idx = ix2 i k := ⟨idx 0, idx 1, eq_ix2 idx⟩
  obtain ⟨t, ht, e⟩ := hd (ix1 i)
  rw [mulf_apply, recip_col_entry _ h1 h5 h2 i k]
  show _ = Ideal.div (agg (ix2 i k)) _
  rw [count_col_entry d h1 h2 i k, e]
  show agg (ix2 i k) * Ideal.div (Ideal.ofBits .f32 0x3F800000#32) (d (ix1 i)) = _
  rw [e]
  exact mul_recip_eq_div _ ht

/-- The bias vector as a 1 x M row, repeated down the N rows, at entry (i, j): b(j), read from the reshaped row. -/
theorem bias_entry (bias : FVec Ideal ⟨1, ![M]⟩ .f32)
    (h3 : (⟨2, ![1, M]⟩ : Shape).BroadcastsInDim ⟨2, ![N, M]⟩ ![0, 1])
    (h4 : (⟨1, ![M]⟩ : Shape).BroadcastsInDim ⟨2, ![1, M]⟩ ![1])
    (h6 : (⟨1, ![M]⟩ : Shape).ShapeCasts ⟨2, ![1, M]⟩) (i : Fin N) (j : Fin M) :
    broadcastInDim ⟨2, ![N, M]⟩ ![0, 1] h3 (broadcastInDim ⟨2, ![1, M]⟩ ![1] h4 bias) (ix2 i j)
      = shapeCast ⟨2, ![1, M]⟩ bias h6 (ix2 (0 : Fin 1) j) := by
  rw [Cert.Proof.Layout.reshape_row_eq_broadcastInDim bias h6 h4]
  exact Cert.LibDenseLayer.bias_array_entry h3 _ i j

/-- THE LAYER WITHOUT RECTIFIER: the tiled arrangement (over the mean formed by the reciprocal column and the bias as a
    reshaped row) is the array arrangement. -/
theorem linear_eq_ref
    (dr : DotDims ⟨2, ![N, K]⟩ ⟨2, ![K, M]⟩ ⟨2, ![N, M]⟩) (hdr : dr = DotDims.plain N K M)
    (agg x : FVec Ideal ⟨2, ![N, K]⟩ .f32) (d : FVec Ideal ⟨1, ![N]⟩ .f32) (hd : AllNonzero d)
    (wl wr : FVec Ideal ⟨2, ![K, M]⟩ .f32) (bias : FVec Ideal ⟨1, ![M]⟩ .f32)
    (h1 : (⟨2, ![N, 1]⟩ : Shape).BroadcastsInDim ⟨2, ![N, K]⟩ ![0, 1])
    (h2 : (⟨1, ![N]⟩ : Shape).BroadcastsInDim ⟨2, ![N, 1]⟩ ![0])
    (h3 : (⟨2, ![1, M]⟩ : Shape).BroadcastsInDim ⟨2, ![N, M]⟩ ![0, 1])
    (h4 : (⟨1, ![M]⟩ : Shape).BroadcastsInDim ⟨2, ![1, M]⟩ ![1])
    (h5 : (⟨1, ![N]⟩ : Shape).ShapeCasts ⟨2, ![N, 1]⟩) (h6 : (⟨1, ![M]⟩ : Shape).ShapeCasts ⟨2, ![1, M]⟩)
    (h7 : (⟨0, ![]⟩ : Shape).BroadcastsInDim ⟨1, ![N]⟩ ![]) :
    linear (mulf agg (broadcastInDim ⟨2, ![N, K]⟩ ![0, 1] h1 (shapeCast ⟨2, ![N, 1]⟩
        (Host.divf (F := Ideal) (broadcastInDim ⟨1, ![N]⟩ ![] h7 (constant (F := Ideal) ⟨0, ![]⟩ .f32 0x3F800000#32)) d) h5)))
        x wl wr (shapeCast ⟨2, ![1, M]⟩ bias h6)
      = addf (addf (Host.dotGeneral (F := Ideal) dr none
            (Host.divf (F := Ideal) agg (broadcastInDim ⟨2, ![N, K]⟩ ![0, 1] h1 (broadcastInDim ⟨2, ![N, 1]⟩ ![0] h2 d))) wl)
          (broadcastInDim ⟨2, ![N, M]⟩ ![0, 1] h3 (broadcastInDim ⟨2, ![1, M]⟩ ![1] h4 bias)))
        (Host.dotGeneral (F := Ideal) dr none x wr) := by
  rw [mean_eq agg d hd h1 h2 h5 h7]
  funext idx
  obtain ⟨i, j, rfl⟩ : ∃ (i : Fin N) (j : Fin M), idx = ix2 i j := ⟨idx 0, idx 1, eq_ix2 idx⟩
  rw [addf_apply, addf_apply, bias_entry bias h3 h4 h6 i j]
  show entry _ x wl wr _ i j = (FloatOps.dotGeneral dr none .single _ wl (ix2 i j) + _) + FloatOps.dotGeneral dr none .single x wr (ix2 i j)
  rw [Cert.LibBlocks.dotGeneral_plain_apply dr hdr, Cert.LibBlocks.dotGeneral_plain_apply dr hdr]
  unfold entry
  exact add_right_comm _ _ _

/-- THE LAYER WITH RECTIFIER: the same, under max(·, 0). -/
theorem hidden_eq_ref
    (dr : DotDims ⟨2, ![N, K]⟩ ⟨2, ![K, M]⟩ ⟨2, ![N, M]⟩) (hdr : dr = DotDims.plain N K M)
    (agg x : FVec Ideal ⟨2, ![N, K]⟩ .f32) (d : FVec Ideal ⟨1, ![N]⟩ .f32) (hd : AllNonzero d)
    (wl wr : FVec Ideal ⟨2, ![K, M]⟩ .f32) (bias : FVec Ideal ⟨1, ![M]⟩ .f32)
    (h1 : (⟨2, ![N, 1]⟩ : Shape).BroadcastsInDim ⟨2, ![N, K]⟩ ![0, 1])
    (h2 : (⟨1, ![N]⟩ : Shape).BroadcastsInDim ⟨2, ![N, 1]⟩ ![0])
    (h3 : (⟨2, ![1, M]⟩ : Shape).BroadcastsInDim ⟨2, ![N, M]⟩ ![0, 1])
    (h4 : (⟨1, ![M]⟩ : Shape).BroadcastsInDim ⟨2, ![1, M]⟩ ![1])
    (h5 : (⟨1, ![N]⟩ : Shape).ShapeCasts ⟨2, ![N, 1]⟩) (h6 : (⟨1, ![M]⟩ : Shape).ShapeCasts ⟨2, ![1, M]⟩)
    (h7 : (⟨0, ![]⟩ : Shape).BroadcastsInDim ⟨1, ![N]⟩ ![])
    (hz : (⟨0, ![]⟩ : Shape).BroadcastsInDim ⟨2, ![N, M]⟩ ![]) :
    hidden (mulf agg (broadcastInDim ⟨2, ![N, K]⟩ ![0, 1] h1 (shapeCast ⟨2, ![N, 1]⟩
        (Host.divf (F := Ideal) (broadcastInDim ⟨1, ![N]⟩ ![] h7 (constant (F := Ideal) ⟨0, ![]⟩ .f32 0x3F800000#32)) d) h5)))
        x wl wr (shapeCast ⟨2, ![1, M]⟩ bias h6)
      = maximumf (addf (addf (Host.dotGeneral (F := Ideal) dr none
            (Host.divf (F := Ideal) agg (broadcastInDim ⟨2, ![N, K]⟩ ![0, 1] h1 (broadcastInDim ⟨2, ![N, 1]⟩ ![0] h2 d))) wl)
          (broadcastInDim ⟨2, ![N, M]⟩ ![0, 1] h3 (broadcastInDim ⟨2, ![1, M]⟩ ![1] h4 bias)))
        (Host.dotGeneral (F := Ideal) dr none x wr))
        (broadcastInDim ⟨2, ![N, M]⟩ ![] hz (constant (F := Ideal) ⟨0, ![]⟩ .f32 0x00000000#32)) := by
  rw [← linear_eq_ref dr hdr agg x d hd wl wr bias h1 h2 h3 h4 h5 h6 h7]
  funext idx
  rw [maximumf_apply, broadcastInDim_apply ![] hz (constant (F := Ideal) ⟨0, ![]⟩ .f32 0x00000000#32) idx ix0 (fun a => a.elim0)]
  rfl

end Cert.SageLayer

end
-- ==== Proof.LayerBridge.lean ====
/-
  ONE GRAPH LAYER: THE ENTRY-BY-ENTRY FORM AND THE ARRAY FORM ARE THE SAME ARRAY, at the extended reals.

  The array form of a layer over the node table t is

      max( (mean · Wl + bias) + t · Wr, 0 ),      mean(i, k) = neighbourSum(i, k) / degree(i),

  the bias vector repeated down the rows, the zero repeated everywhere.  The entry-by-entry form at (i, j) is

      max( (Σ_k a(i, k) · Wl(k, j) + b(j)) + Σ_k t(i, k) · Wr(k, j), 0 ),   a(i, k) = neighbourSum(i, k) · (1 / degree(i)).

  The two agree because

  * degree(i) = max(in-count(i), 1) is a positive real: the in-count is a finite sum of ones added to a zero, hence a
    real number, and its maximum with the real number one is at least one;
  * for a nonzero real d, x · (1 / d) = x / d for EVERY extended real x, the infinite ones included;
  * each matrix product, read at (i, j), is the sum over k of left(i, k) · right(k, j), in the same order on both sides;
  * a change of float format is the identity on the extended reals.

  The three summands keep their order and no distributive law is used, so nothing is asked of t or of the weights.
  The neighbour sum itself is never opened: it is the same array on both sides.
-/
import proofs.«136383_j28862180229417_1_alg».proof.Proof.Spec
import proofs.«136383_j28862180229417_1_alg».proof.Proof.Tiled
import proofs.«136383_j28862180229417_1_alg».proof.Proof.LibBlocks
import proofs.«136383_j28862180229417_1_alg».proof.Proof.LibDenseLayer
import proofs.«136383_j28862180229417_1_alg».proof.Proof.LibSageLayer
import proofs.«136383_j28862180229417_1_alg».proof.Proof.LibReal
import Idealize.ShloMosaic.Lib.IdealHost

noncomputable section

open scoped BigOperators

namespace Cert.Bridge

open Idealize.ShloMosaic Idealize.ShloMosaic.ValueIdx Cert.ReferenceIdeal Cert.ReferenceIdeal.Gen Cert.LibReal

/-! ## The degree is a positive real -/

/-- The in-count is a real number at every node: a finite sum of ones added to a zero. -/
theorem inCount_allReal (ei : IVec S2x800000 32) : AllReal (Cert.Spec.inCount ei) :=
  scatterAdd_allReal _ _
    (broadcastInDim_allReal _ _ (constant_allReal S_ .f32 _ ofBits_zero))
    (broadcastInDim_allReal _ _ (constant_allReal S_ .f32 _ ofBits_one))

/-- max(in-count, 1) is a positive real at every node: the in-count is a sum of ones into zeros. -/
theorem degree_allPos (ei : IVec S2x800000 32) : ∀ i, ∃ r : ℝ, 0 < r ∧ Cert.Spec.degree ei i = (r : EReal) :=
  maximumf_allPos_right (inCount_allReal ei)
    (broadcastInDim_allPos _ _ (constant_allPos S_ .f32 _ one_pos ofBits_one))

/-! ## The two arrangements of the mean -/

/-- The neighbour sum times the reciprocal of the degree is the neighbour sum divided by the degree. -/
theorem meanT_eq (t : FVec Ideal S50000x128 .f32) (ei : IVec S2x800000 32) :
    Cert.Spec.meanT t ei = Cert.Spec.mean t ei := by
  funext idx
  obtain ⟨i, k, rfl⟩ : ∃ (i : Fin 50000) (k : Fin 128), idx = ix2 i k := ⟨idx 0, idx 1, eq_ix2 idx⟩
  obtain ⟨d, hd, hde⟩ := degree_allPos ei (ix1 i)
  unfold Cert.Spec.meanT Cert.Spec.mean Cert.Spec.perNode
  rw [mulf_apply, hostDivf_apply,
    Cert.SageLayer.count_col_entry _ bcast_S50000x1_S50000x128_0_1 bcast_S50000_S50000x1_0 i k,
    Cert.SageLayer.count_col_entry _ bcast_S50000x1_S50000x128_0_1 bcast_S50000_S50000x1_0 i k,
    hostDivf_apply, broadcastInDim_scalar_apply, constant_apply, hde]
  exact Cert.SageLayer.mul_recip_eq_div _ hd.ne'

/-! ## The bias and the zero, read at one entry -/

/-- The bias vector made a 1 x 128 row and repeated down the rows, at entry (i, j): b(j). -/
theorem bias_entry (b : FVec Ideal S128 .f32) (i : Fin 50000) (j : Fin 128) :
    broadcastInDim S50000x128 ![0, 1] bcast_S1x128_S50000x128_0_1 (broadcastInDim S1x128 ![1] bcast_S128_S1x128_1 b) (ix2 i j)
      = b (ix1 j) := by
  rw [Cert.LibDenseLayer.bias_array_entry bcast_S1x128_S50000x128_0_1 _ i j]
  exact broadcastInDim_apply ![1] bcast_S128_S1x128_1 b (ix2 (0 : Fin 1) j) (ix1 j) (fun a => by
    match a with
    | ⟨0, _⟩ => rfl)

/-- The zero repeated everywhere, at any entry: the zero. -/
theorem zero_entry (idx : S50000x128.Idx) :
    broadcastInDim S50000x128 ![] bcast_S_S50000x128 (constant (F := Ideal) S_ .f32 0x00000000#32) idx
      = Ideal.ofBits .f32 0x00000000#32 := by
  rw [broadcastInDim_scalar_apply, constant_apply]

/-! ## The layer -/

/-- The layer's dimension numbers are the plain rows-by-columns ones. -/
theorem dot_plain : dot_S50000x128_S128x128_S50000x128_1_0_0_1_n_n = DotDims.plain 50000 128 128 := rfl

/-- The host's rows-by-columns product at (p, q): the sum over k of left(p, k) · right(k, q). -/
theorem hostDot_plain_apply {M K N : Nat} {φ₁ φ₂ : FTy} (d : DotDims ⟨2, ![M, K]⟩ ⟨2, ![K, N]⟩ ⟨2, ![M, N]⟩)
    (hd : d = DotDims.plain M K N) (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  Cert.LibBlocks.dotGeneral_plain_apply d hd none .single l r p q

/-- The entry-by-entry layer read at (i, j). -/
theorem layerT_apply {N K M : Nat} {φa φx φl φr : FTy} (a : FVec Ideal ⟨2, ![N, K]⟩ φa) (x : FVec Ideal ⟨2, ![N, K]⟩ φx)
    (wl : FVec Ideal ⟨2, ![K, M]⟩ φl) (b : FVec Ideal ⟨1, ![M]⟩ .f32) (wr : FVec Ideal ⟨2, ![K, M]⟩ φr)
    (i : Fin N) (j : Fin M) :
    Cert.Tiled.layerT a x wl b wr (ix2 i j)
      = max ((∑ k : Fin K, a (ix2 i k) * wl (ix2 k j) + b (ix1 j)) + ∑ k : Fin K, x (ix2 i k) * wr (ix2 k j))
          (Ideal.ofBits .f32 0x00000000#32) := rfl

/-- THE LAYER: the entry-by-entry form over the mean formed with the reciprocal of the degree, every operand passed
    through a change of float format, is the array form over the mean formed by division. At (i, j) both are
    max((Σ_k mean(i, k) · Wl(k, j) + b(j)) + Σ_k t(i, k) · Wr(k, j), 0), the summands in the same order. -/
theorem layerT_eq (t : FVec Ideal S50000x128 .f32) (ei : IVec S2x800000 32) (wl : FVec Ideal S128x128 .f32)
    (b : FVec Ideal S128 .f32) (wr : FVec Ideal S128x128 .f32) :
    Cert.Tiled.layerT (φa := .bf16) (φx := .bf16) (φl := .bf16) (φr := .bf16)
        (truncf .bf16 (Cert.Spec.meanT t ei)) (truncf .bf16 t) (truncf .bf16 wl) b (truncf .bf16 wr)
      = Cert.Spec.layer t ei wl b wr := by
  funext idx
  obtain ⟨i, j, rfl⟩ : ∃ (i : Fin 50000) (j : Fin 128), idx = ix2 i j := ⟨idx 0, idx 1, eq_ix2 idx⟩
  unfold Cert.Spec.layer
  rw [maximumf_apply, addf_apply, addf_apply, bias_entry b i j, zero_entry (ix2 i j),
    hostDot_plain_apply _ dot_plain, hostDot_plain_apply _ dot_plain, ← meanT_eq t ei,
    layerT_apply]
  simp only [truncf_apply]

end Cert.Bridge

end
-- ==== Proof.ScoreBridge.lean ====
/-
  THE EDGE SCORE: the entry-by-entry formula against the reference's chain of whole-array operations, at the
  extended reals.

  The reference scores an edge's feature row f(e, ·) of 256 numbers in two dense steps,
      hidden(e, j) = max( Σ_k f(e, k) · w3(k, j) + b3(j), 0 ),      score(e) = Σ_j hidden(e, j) · w4(j, 0) + b4(0),
  written with two host products ([800000, 256] × [256, 256] and [800000, 256] × [256, 1]), each bias broadcast first to
  a one-row matrix and then down the rows, and a last reshape of the [800000, 1] column to a vector. The entry formula
  reads the same numbers directly, with w4 given as the vector of 256 entries that the [256, 1] column reshapes to.

  Three remarks make the two equal. (1) On the extended reals a change of float format is the identity, so the features
  looked up in a narrowed node table are the features looked up in the table itself, and the narrowed w3 is w3. (2) A
  host product at entry (p, q) is the sum over k of left (p, k) · right (k, q); a bias broadcast [n] → [1, n] → [N, n]
  read at (r, q) is the bias at q; the zero array reads zero everywhere. (3) Entry j of the reshaped column is the
  column's entry (j, 0): both sit at row-major position j. Nothing is reordered: both sides sum over the same indices in
  the same order, so no commutativity is used.
-/
import proofs.«136383_j28862180229417_1_alg».proof.Proof.Spec
import proofs.«136383_j28862180229417_1_alg».proof.Proof.Tiled
import proofs.«136383_j28862180229417_1_alg».proof.Proof.LibBlocks
import proofs.«136383_j28862180229417_1_alg».proof.Proof.LibDenseLayer

noncomputable section

open scoped BigOperators

namespace Cert.Bridge

open Idealize.ShloMosaic Idealize.ShloMosaic.ValueIdx Cert.ReferenceIdeal Cert.ReferenceIdeal.Gen

/-! ## The dimension numbers are the plain rows-by-columns ones -/

/-- The first product's dimension numbers: [800000, 256] by [256, 256], contracting the inner axis. -/
theorem dot_hidden_plain : dot_S800000x256_S256x256_S800000x256_1_0_0_1_n_n = DotDims.plain 800000 256 256 := rfl

/-- The second product's: [800000, 256] by [256, 1]. -/
theorem dot_out_plain : dot_S800000x256_S256x1_S800000x1_1_0_0_1_n_n = DotDims.plain 800000 256 1 := rfl

/-! ## A change of float format does not change the features -/

/-- The features looked up in the narrowed node table are those looked up in the table itself: narrowing is the
    identity on extended reals, and the lookup and the joining of the two rows only move entries. -/
theorem edgeFeatures_truncf (h : FVec Ideal S50000x128 .f32) (ei : IVec S2x800000 32) (i : S800000x256.Idx) :
    Cert.Spec.edgeFeatures (truncf .bf16 h) ei i = Cert.Spec.edgeFeatures h ei i := rfl

/-! ## The layout operations read at an entry -/

/-- A bias vector broadcast to one row and then down N rows, read at (r, q): the bias at q. -/
theorem score_bias_entry {N b : Nat} (h1 : (⟨1, ![b]⟩ : Shape).BroadcastsInDim ⟨2, ![1, b]⟩ ![1])
    (h2 : (⟨2, ![1, b]⟩ : Shape).BroadcastsInDim ⟨2, ![N, b]⟩ ![0, 1]) (c : FVec Ideal ⟨1, ![b]⟩ .f32) (r : Fin N) (q : Fin b) :
    broadcastInDim ⟨2, ![N, b]⟩ ![0, 1] h2 (broadcastInDim ⟨2, ![1, b]⟩ ![1] h1 c) (ix2 r q) = c (ix1 q) := by
  rw [Cert.LibDenseLayer.bias_array_entry h2 _ r q]
  exact broadcastInDim_apply ![1] h1 c (ix2 (0 : Fin 1) q) (ix1 q) (fun a => by
    match a with
    | ⟨0, _⟩ =>
      show q.val = if b = 1 then 0 else q.val
      have := q.isLt
      split_ifs <;> omega)

/-- The zero array read anywhere is zero. -/
theorem score_zero_entry {N b : Nat} (hz : (⟨0, ![]⟩ : Shape).BroadcastsInDim ⟨2, ![N, b]⟩ ![]) (r : Fin N) (q : Fin b) :
    broadcastInDim ⟨2, ![N, b]⟩ ![] hz (constant (F := Ideal) ⟨0, ![]⟩ .f32 0x00000000#32) (ix2 r q)
      = Ideal.ofBits .f32 0x00000000#32 :=
  broadcastInDim_apply ![] hz (constant (F := Ideal) ⟨0, ![]⟩ .f32 0x00000000#32) (ix2 r q) ix0 (fun a => a.elim0)

/-- Entry j of the vector an [n, 1] column reshapes to is the column's entry (j, 0): row-major position j * 1 + 0. -/
theorem column_entry {n : Nat} (w : FVec Ideal ⟨2, ![n, 1]⟩ .f32) (hc : (⟨2, ![n, 1]⟩ : Shape).ShapeCasts ⟨1, ![n]⟩)
    (j : Fin n) (u : Fin 1) : shapeCast ⟨1, ![n]⟩ w hc (ix1 j) = w (ix2 j u) :=
  shapeCast_apply w hc (ix1 j) (ix2 j u) (by
    have hu : u.val = 0 := by omega
    rw [Shape.rowMajor_val_two, Shape.rowMajor_val_one]
    show j.val * 1 + u.val = j.val
    omega)

/-! ## The score -/

/-- The entry formula of the edge score, on the features of the narrowed node table and the narrowed first weight
    matrix, with the last weight column given as a vector, is the reference's score of the features of the table. -/
theorem scoreT_eq (h : FVec Ideal S50000x128 .f32) (ei : IVec S2x800000 32) (w3 : FVec Ideal S256x256 .f32)
    (b3 : FVec Ideal S256 .f32) (w4 : FVec Ideal S256x1 .f32) (b4 : FVec Ideal S1 .f32)
    (hc : S256x1.ShapeCasts S256) :
    shapeCast S800000
        (Cert.Tiled.scoreT (φf := .bf16) (φw := .bf16) (Cert.Spec.edgeFeatures (truncf .bf16 h) ei) (truncf .bf16 w3) b3
          (shapeCast S256 w4 hc) b4)
        shapeCasts_S800000x1_S800000
      = Cert.Spec.score (Cert.Spec.edgeFeatures h ei) w3 b3 w4 b4 := by
  unfold Cert.Spec.score
  refine congrArg (fun v => shapeCast S800000 v shapeCasts_S800000x1_S800000) ?_
  funext i
  obtain ⟨e, u, rfl⟩ : ∃ (e : Fin 800000) (u : Fin 1), i = ix2 e u := ⟨i 0, i 1, eq_ix2 i⟩
  have hu : u = 0 := Fin.ext (by omega)
  subst hu
  show Cert.Tiled.scoreEntry _ _ _ _ _ e = _
  unfold Cert.Tiled.scoreEntry Host.dotGeneral
  rw [addf_apply, Cert.LibBlocks.dotGeneral_plain_apply _ dot_out_plain, score_bias_entry]
  refine congrArg (· + b4 (ix1 (0 : Fin 1))) (Finset.sum_congr rfl fun j _ => ?_)
  rw [column_entry w4 hc j 0, maximumf_apply, addf_apply, Cert.LibBlocks.dotGeneral_plain_apply _ dot_hidden_plain,
    score_bias_entry, score_zero_entry]
  refine congrArg (fun s => max (s + b3 (ix1 j)) (Ideal.ofBits .f32 0x00000000#32) * w4 (ix2 j 0))
    (Finset.sum_congr rfl fun k _ => ?_)
  rw [edgeFeatures_truncf, truncf_apply]

end Cert.Bridge

end
-- ==== Proof.Chain.lean ====
/-
  THE TILED PROGRAM'S VALUE. The buffer contents at each boundary of the program (a stretch of host operations, a
  tiled region, a stretch, …) are a fold from the launch memory. Read back at the buffers that matter:

    first stretch     the edge list's two rows, the reciprocal degree, and region 0's five operands: the mean of the
                      in-neighbours' rows of x (as neighbour sum times reciprocal degree), x, and the first layer's
                      weights, the float arrays narrowed on the way in (the identity at the extended reals);
    region 0          the first layer h1 = layer x, by the region's blocks put together and the layer's two arrangements;
    second stretch    region 1's operands, the same over h1 and the second layer's weights;
    region 1          h2 = layer h1;
    third stretch     each edge's features (the source's row of h2 joined with the destination's) and the scoring
                      weights, the last weight column as a vector;
    region 2, tail    the score column, reshaped to a vector: the network of Spec.lean.

  A stretch leaves a buffer it does not write as it was, and a region leaves every buffer that is not one of its
  windows' arrays as it was; what a stretch writes is its operations applied to what it found.
-/
import proofs.«136383_j28862180229417_1_alg».proof.Proof.Gen.KernelIdeal.Frame
import proofs.«136383_j28862180229417_1_alg».proof.Proof.Spec
import proofs.«136383_j28862180229417_1_alg».proof.Proof.Tiled
import proofs.«136383_j28862180229417_1_alg».proof.Proof.Region0
import proofs.«136383_j28862180229417_1_alg».proof.Proof.Region1
import proofs.«136383_j28862180229417_1_alg».proof.Proof.Region2
import proofs.«136383_j28862180229417_1_alg».proof.Proof.LayerBridge
import proofs.«136383_j28862180229417_1_alg».proof.Proof.ScoreBridge
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- Argument 0 of the program on device c, as launched. -/
abbrev a0 (c : Dev nD) : FVec Ideal S50000x128 .f32 := m ((c.tc : Thread nD τ).loc main_arg0)
/-- Argument 1 of the program on device c, as launched. -/
abbrev a1 (c : Dev nD) : IVec S2x800000 32 := m ((c.tc : Thread nD τ).loc main_arg1)
/-- Argument 2 of the program on device c, as launched. -/
abbrev a2 (c : Dev nD) : FVec Ideal S128x128 .f32 := m ((c.tc : Thread nD τ).loc main_arg2)
/-- Argument 3 of the program on device c, as launched. -/
abbrev a3 (c : Dev nD) : FVec Ideal S128 .f32 := m ((c.tc : Thread nD τ).loc main_arg3)
/-- Argument 4 of the program on device c, as launched. -/
abbrev a4 (c : Dev nD) : FVec Ideal S128x128 .f32 := m ((c.tc : Thread nD τ).loc main_arg4)
/-- Argument 5 of the program on device c, as launched. -/
abbrev a5 (c : Dev nD) : FVec Ideal S128x128 .f32 := m ((c.tc : Thread nD τ).loc main_arg5)
/-- Argument 6 of the program on device c, as launched. -/
abbrev a6 (c : Dev nD) : FVec Ideal S128 .f32 := m ((c.tc : Thread nD τ).loc main_arg6)
/-- Argument 7 of the program on device c, as launched. -/
abbrev a7 (c : Dev nD) : FVec Ideal S128x128 .f32 := m ((c.tc : Thread nD τ).loc main_arg7)
/-- Argument 8 of the program on device c, as launched. -/
abbrev a8 (c : Dev nD) : FVec Ideal S256x256 .f32 := m ((c.tc : Thread nD τ).loc main_arg8)
/-- Argument 9 of the program on device c, as launched. -/
abbrev a9 (c : Dev nD) : FVec Ideal S256 .f32 := m ((c.tc : Thread nD τ).loc main_arg9)
/-- Argument 10 of the program on device c, as launched. -/
abbrev a10 (c : Dev nD) : FVec Ideal S256x1 .f32 := m ((c.tc : Thread nD τ).loc main_arg10)
/-- Argument 11 of the program on device c, as launched. -/
abbrev a11 (c : Dev nD) : FVec Ideal S1 .f32 := m ((c.tc : Thread nD τ).loc main_arg11)

/-! ## The first stretch of host operations: region 0's entry contents -/

/-- The launch contents of an argument. -/
theorem W0_arg (c : Dev nD) (b : Ref sig .tc) : W0 m ρ c (Proc.devRef .tc b) = m ((c.tc : Thread nD τ).loc b) := rfl

theorem s0_src (c : Dev nD) : W1 m ρ c (Proc.devRef .tc main_v1) = Cert.Spec.srcOf (a1 m c) := by
  show StableHlo.after hostOps0 (W0 m ρ c) (Proc.devRef .tc main_v1) = _
  after_results_simp <;> rfl

theorem s0_dst (c : Dev nD) : W1 m ρ c (Proc.devRef .tc main_v3) = Cert.Spec.dstOf (a1 m c) := by
  show StableHlo.after hostOps0 (W0 m ρ c) (Proc.devRef .tc main_v3) = _
  after_results_simp <;> rfl

/-- The reciprocal of the degree, per node. -/
abbrev recip (ei : IVec S2x800000 32) : FVec Ideal S50000 .f32 :=
  Host.divf (broadcastInDim S50000 ![] bcast_S_S50000 (constant S_ .f32 0x3F800000#32)) (Cert.Spec.degree ei)

set_option maxHeartbeats 4000000 in
theorem s0_recip (c : Dev nD) : W1 m ρ c (Proc.devRef .tc main_v11) = recip (a1 m c) := by
  show StableHlo.after hostOps0 (W0 m ρ c) (Proc.devRef .tc main_v11) = _
  after_results_simp <;> rfl

set_option maxHeartbeats 4000000 in
theorem s0_mean (c : Dev nD) :
    W1 m ρ c (Proc.devRef .tc main_v25) = truncf .bf16 (Cert.Spec.meanT (a0 m c) (a1 m c)) := by
  show StableHlo.after hostOps0 (W0 m ρ c) (Proc.devRef .tc main_v25) = _
  after_results_simp <;> rfl

theorem s0_x (c : Dev nD) : W1 m ρ c (Proc.devRef .tc main_v26) = truncf .bf16 (a0 m c) := by
  show StableHlo.after hostOps0 (W0 m ρ c) (Proc.devRef .tc main_v26) = _
  after_results_simp <;> rfl

theorem s0_wl (c : Dev nD) : W1 m ρ c (Proc.devRef .tc main_v27) = truncf .bf16 (a2 m c) := by
  show StableHlo.after hostOps0 (W0 m ρ c) (Proc.devRef .tc main_v27) = _
  after_results_simp <;> rfl

theorem s0_wr (c : Dev nD) : W1 m ρ c (Proc.devRef .tc main_v28) = truncf .bf16 (a4 m c) := by
  show StableHlo.after hostOps0 (W0 m ρ c) (Proc.devRef .tc main_v28) = _
  after_results_simp <;> rfl

theorem s0_arg3 (c : Dev nD) : W1 m ρ c (Proc.devRef .tc main_arg3) = a3 m c :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s0_arg5 (c : Dev nD) : W1 m ρ c (Proc.devRef .tc main_arg5) = a5 m c :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s0_arg6 (c : Dev nD) : W1 m ρ c (Proc.devRef .tc main_arg6) = a6 m c :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s0_arg7 (c : Dev nD) : W1 m ρ c (Proc.devRef .tc main_arg7) = a7 m c :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s0_arg8 (c : Dev nD) : W1 m ρ c (Proc.devRef .tc main_arg8) = a8 m c :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s0_arg9 (c : Dev nD) : W1 m ρ c (Proc.devRef .tc main_arg9) = a9 m c :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s0_arg10 (c : Dev nD) : W1 m ρ c (Proc.devRef .tc main_arg10) = a10 m c :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s0_arg11 (c : Dev nD) : W1 m ρ c (Proc.devRef .tc main_arg11) = a11 m c :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## Region 0: the first graph layer -/

/-- The first layer's output, as the tiled region leaves it. -/
theorem r0_out (c : Dev nD) :
    W2 m ρ c (Proc.devRef .tc main_v29) = Cert.Spec.layer (a0 m c) (a1 m c) (a2 m c) (a3 m c) (a4 m c) := by
  refine (W2_arr m ρ c 5).trans ?_
  rw [Cert.KernelIdeal.Regions.region0_array (V1 m ρ) c]
  show Cert.Tiled.layerT (φa := .bf16) (φx := .bf16) (φl := .bf16) (φr := .bf16)
      (W1 m ρ c (Proc.devRef .tc main_v25)) (W1 m ρ c (Proc.devRef .tc main_v26)) (W1 m ρ c (Proc.devRef .tc main_v27))
      (W1 m ρ c (Proc.devRef .tc main_arg3)) (W1 m ρ c (Proc.devRef .tc main_v28)) = _
  rw [s0_mean, s0_x, s0_wl, s0_arg3, s0_wr]
  exact Cert.Bridge.layerT_eq _ _ _ _ _

theorem r0_src (c : Dev nD) : W2 m ρ c (Proc.devRef .tc main_v1) = Cert.Spec.srcOf (a1 m c) :=
  (W2_of_ne m ρ c main_v1 (by decide)).trans (s0_src m ρ c)

theorem r0_dst (c : Dev nD) : W2 m ρ c (Proc.devRef .tc main_v3) = Cert.Spec.dstOf (a1 m c) :=
  (W2_of_ne m ρ c main_v3 (by decide)).trans (s0_dst m ρ c)

theorem r0_recip (c : Dev nD) : W2 m ρ c (Proc.devRef .tc main_v11) = recip (a1 m c) :=
  (W2_of_ne m ρ c main_v11 (by decide)).trans (s0_recip m ρ c)

theorem r0_arg5 (c : Dev nD) : W2 m ρ c (Proc.devRef .tc main_arg5) = a5 m c :=
  (W2_of_ne m ρ c main_arg5 (by decide)).trans (s0_arg5 m ρ c)

theorem r0_arg6 (c : Dev nD) : W2 m ρ c (Proc.devRef .tc main_arg6) = a6 m c :=
  (W2_of_ne m ρ c main_arg6 (by decide)).trans (s0_arg6 m ρ c)

theorem r0_arg7 (c : Dev nD) : W2 m ρ c (Proc.devRef .tc main_arg7) = a7 m c :=
  (W2_of_ne m ρ c main_arg7 (by decide)).trans (s0_arg7 m ρ c)

theorem r0_arg8 (c : Dev nD) : W2 m ρ c (Proc.devRef .tc main_arg8) = a8 m c :=
  (W2_of_ne m ρ c main_arg8 (by decide)).trans (s0_arg8 m ρ c)

theorem r0_arg9 (c : Dev nD) : W2 m ρ c (Proc.devRef .tc main_arg9) = a9 m c :=
  (W2_of_ne m ρ c main_arg9 (by decide)).trans (s0_arg9 m ρ c)

theorem r0_arg10 (c : Dev nD) : W2 m ρ c (Proc.devRef .tc main_arg10) = a10 m c :=
  (W2_of_ne m ρ c main_arg10 (by decide)).trans (s0_arg10 m ρ c)

theorem r0_arg11 (c : Dev nD) : W2 m ρ c (Proc.devRef .tc main_arg11) = a11 m c :=
  (W2_of_ne m ρ c main_arg11 (by decide)).trans (s0_arg11 m ρ c)

/-! ## The second stretch: region 1's entry contents -/

/-- The first layer's output on device c. -/
abbrev h1 (c : Dev nD) : FVec Ideal S50000x128 .f32 := Cert.Spec.layer (a0 m c) (a1 m c) (a2 m c) (a3 m c) (a4 m c)

set_option maxHeartbeats 4000000 in
theorem s1_mean (c : Dev nD) :
    W3 m ρ c (Proc.devRef .tc main_v43) = truncf .bf16 (Cert.Spec.meanT (h1 m c) (a1 m c)) := by
  show StableHlo.after hostOps1 (W2 m ρ c) (Proc.devRef .tc main_v43) = _
  after_results_simp
  rw [r0_out, r0_src, r0_dst, r0_recip]
  try rfl

theorem s1_x (c : Dev nD) : W3 m ρ c (Proc.devRef .tc main_v44) = truncf .bf16 (h1 m c) := by
  show StableHlo.after hostOps1 (W2 m ρ c) (Proc.devRef .tc main_v44) = _
  after_results_simp
  rw [r0_out]
  try rfl

theorem s1_wl (c : Dev nD) : W3 m ρ c (Proc.devRef .tc main_v45) = truncf .bf16 (a5 m c) := by
  show StableHlo.after hostOps1 (W2 m ρ c) (Proc.devRef .tc main_v45) = _
  after_results_simp
  rw [r0_arg5]
  try rfl

theorem s1_wr (c : Dev nD) : W3 m ρ c (Proc.devRef .tc main_v46) = truncf .bf16 (a7 m c) := by
  show StableHlo.after hostOps1 (W2 m ρ c) (Proc.devRef .tc main_v46) = _
  after_results_simp
  rw [r0_arg7]
  try rfl

theorem s1_src (c : Dev nD) : W3 m ρ c (Proc.devRef .tc main_v1) = Cert.Spec.srcOf (a1 m c) :=
  (StableHlo.after_of_forall_not_mem (b := Proc.devRef .tc main_v1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (r0_src m ρ c)

theorem s1_dst (c : Dev nD) : W3 m ρ c (Proc.devRef .tc main_v3) = Cert.Spec.dstOf (a1 m c) :=
  (StableHlo.after_of_forall_not_mem (b := Proc.devRef .tc main_v3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (r0_dst m ρ c)

theorem s1_arg6 (c : Dev nD) : W3 m ρ c (Proc.devRef .tc main_arg6) = a6 m c :=
  (StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (r0_arg6 m ρ c)

theorem s1_arg8 (c : Dev nD) : W3 m ρ c (Proc.devRef .tc main_arg8) = a8 m c :=
  (StableHlo.after_of_forall_not_mem (b := Proc.devRef .tc main_arg8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (r0_arg8 m ρ c)

theorem s1_arg9 (c : Dev nD) : W3 m ρ c (Proc.devRef .tc main_arg9) = a9 m c :=
  (StableHlo.after_of_forall_not_mem (b := Proc.devRef .tc main_arg9) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (r0_arg9 m ρ c)

theorem s1_arg10 (c : Dev nD) : W3 m ρ c (Proc.devRef .tc main_arg10) = a10 m c :=
  (StableHlo.after_of_forall_not_mem (b := Proc.devRef .tc main_arg10) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (r0_arg10 m ρ c)

theorem s1_arg11 (c : Dev nD) : W3 m ρ c (Proc.devRef .tc main_arg11) = a11 m c :=
  (StableHlo.after_of_forall_not_mem (b := Proc.devRef .tc main_arg11) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (r0_arg11 m ρ c)

/-! ## Region 1: the second graph layer -/

theorem r1_out (c : Dev nD) :
    W4 m ρ c (Proc.devRef .tc main_v47) = Cert.Spec.layer (h1 m c) (a1 m c) (a5 m c) (a6 m c) (a7 m c) := by
  refine (W4_arr m ρ c 5).trans ?_
  rw [Cert.KernelIdeal.Regions.region1_array (V3 m ρ) c]
  show Cert.Tiled.layerT (φa := .bf16) (φx := .bf16) (φl := .bf16) (φr := .bf16)
      (W3 m ρ c (Proc.devRef .tc main_v43)) (W3 m ρ c (Proc.devRef .tc main_v44)) (W3 m ρ c (Proc.devRef .tc main_v45))
      (W3 m ρ c (Proc.devRef .tc main_arg6)) (W3 m ρ c (Proc.devRef .tc main_v46)) = _
  rw [s1_mean, s1_x, s1_wl, s1_arg6, s1_wr]
  exact Cert.Bridge.layerT_eq _ _ _ _ _

theorem r1_src (c : Dev nD) : W4 m ρ c (Proc.devRef .tc main_v1) = Cert.Spec.srcOf (a1 m c) :=
  (W4_of_ne m ρ c main_v1 (by decide)).trans (s1_src m ρ c)

theorem r1_dst (c : Dev nD) : W4 m ρ c (Proc.devRef .tc main_v3) = Cert.Spec.dstOf (a1 m c) :=
  (W4_of_ne m ρ c main_v3 (by decide)).trans (s1_dst m ρ c)

theorem r1_arg8 (c : Dev nD) : W4 m ρ c (Proc.devRef .tc main_arg8) = a8 m c :=
  (W4_of_ne m ρ c main_arg8 (by decide)).trans (s1_arg8 m ρ c)

theorem r1_arg9 (c : Dev nD) : W4 m ρ c (Proc.devRef .tc main_arg9) = a9 m c :=
  (W4_of_ne m ρ c main_arg9 (by decide)).trans (s1_arg9 m ρ c)

theorem r1_arg10 (c : Dev nD) : W4 m ρ c (Proc.devRef .tc main_arg10) = a10 m c :=
  (W4_of_ne m ρ c main_arg10 (by decide)).trans (s1_arg10 m ρ c)

theorem r1_arg11 (c : Dev nD) : W4 m ρ c (Proc.devRef .tc main_arg11) = a11 m c :=
  (W4_of_ne m ρ c main_arg11 (by decide)).trans (s1_arg11 m ρ c)

/-! ## The third stretch: region 2's entry contents -/

/-- The second layer's output on device c. -/
abbrev h2 (c : Dev nD) : FVec Ideal S50000x128 .f32 := Cert.Spec.layer (h1 m c) (a1 m c) (a5 m c) (a6 m c) (a7 m c)

set_option maxHeartbeats 4000000 in
theorem s2_feat (c : Dev nD) :
    W5 m ρ c (Proc.devRef .tc main_v63) = Cert.Spec.edgeFeatures (truncf .bf16 (h2 m c)) (a1 m c) := by
  show StableHlo.after hostOps2 (W4 m ρ c) (Proc.devRef .tc main_v63) = _
  after_results
  rw [r1_out, r1_src, r1_dst]
  try rfl

theorem s2_w3 (c : Dev nD) : W5 m ρ c (Proc.devRef .tc main_v64) = truncf .bf16 (a8 m c) := by
  show StableHlo.after hostOps2 (W4 m ρ c) (Proc.devRef .tc main_v64) = _
  after_results_simp
  rw [r1_arg8]
  try rfl

theorem s2_w4 (c : Dev nD) : W5 m ρ c (Proc.devRef .tc main_v65) = shapeCast S256 (a10 m c) shapeCasts_S256x1_S256 := by
  show StableHlo.after hostOps2 (W4 m ρ c) (Proc.devRef .tc main_v65) = _
  after_results_simp
  rw [r1_arg10]
  try rfl

theorem s2_arg9 (c : Dev nD) : W5 m ρ c (Proc.devRef .tc main_arg9) = a9 m c :=
  (StableHlo.after_of_forall_not_mem (b := Proc.devRef .tc main_arg9) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (r1_arg9 m ρ c)

theorem s2_arg11 (c : Dev nD) : W5 m ρ c (Proc.devRef .tc main_arg11) = a11 m c :=
  (StableHlo.after_of_forall_not_mem (b := Proc.devRef .tc main_arg11) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (r1_arg11 m ρ c)

/-! ## Region 2 and the last stretch: the scores -/

theorem r2_out (c : Dev nD) :
    W6 m ρ c (Proc.devRef .tc main_v66)
      = Cert.Tiled.scoreT (φf := .bf16) (φw := .bf16) (Cert.Spec.edgeFeatures (truncf .bf16 (h2 m c)) (a1 m c))
          (truncf .bf16 (a8 m c)) (a9 m c) (shapeCast S256 (a10 m c) shapeCasts_S256x1_S256) (a11 m c) := by
  refine (W6_arr m ρ c 5).trans ?_
  rw [Cert.KernelIdeal.Regions.region2_array (V5 m ρ) c]
  show Cert.Tiled.scoreT (φf := .bf16) (φw := .bf16)
      (W5 m ρ c (Proc.devRef .tc main_v63)) (W5 m ρ c (Proc.devRef .tc main_v64)) (W5 m ρ c (Proc.devRef .tc main_arg9))
      (W5 m ρ c (Proc.devRef .tc main_v65)) (W5 m ρ c (Proc.devRef .tc main_arg11)) = _
  rw [s2_feat, s2_w3, s2_arg9, s2_w4, s2_arg11]

/-- THE KERNEL'S VALUE: the result buffer at the end of the fold is the network applied to the arguments. -/
theorem result_eq (c : Dev nD) :
    W7 m ρ c (Proc.devRef .tc main_v67)
      = Cert.Spec.out (a0 m c) (a1 m c) (a2 m c) (a3 m c) (a4 m c) (a5 m c) (a6 m c) (a7 m c) (a8 m c) (a9 m c) (a10 m c) (a11 m c) := by
  show StableHlo.after hostOps3 (W6 m ρ c) (Proc.devRef .tc main_v67) = _
  after_results_simp
  rw [r2_out]
  exact Cert.Bridge.scoreT_eq (h2 m c) (a1 m c) (a8 m c) (a9 m c) (a10 m c) (a11 m c) _

end Cert.KernelIdeal.Chain

end
-- ==== Proof.lean ====
/-
  TWO GRAPH LAYERS AND AN EDGE SCORE, TILED, AGAINST THE SAME NETWORK AS WHOLE-ARRAY OPERATIONS.

  Over a graph of 50000 nodes and 800000 edges: a layer sends the node rows t to
  max((mean of the in-neighbours' rows of t) · Wl + b + t · Wr, 0); after two layers each edge's features are its
  source's row joined with its destination's row, and its score is max(f · W3 + b3, 0) · W4 + b4.

  The tiled program forms the mean as the neighbour sum times 1 / degree, runs each layer in blocks of 2000 node
  rows and the scoring in blocks of 4000 edges on the matrix unit (the last product as a sum along the lanes), and
  narrows its float operands on the way in. The reference divides the neighbour sum by the degree and applies
  whole-array products. At the extended reals a change of float format is the identity, both kinds of product are
  the same sums in the same order, a block of rows of a row-wise function is that function of the block of rows, and
  since the degree max(count, 1) is a nonzero real, a · (1 / d) = a / d for every extended real a. No other law is
  used, so nothing is asked of the inputs: the finiteness precondition is never opened.

  Modules: Spec (the network as one function), Tiled (the two dense stages entry by entry), Region0 / Region1 /
  Region2 (each region's blocks put together), LayerBridge / ScoreBridge (the two arrangements agree), Chain (the
  tiled program's buffers read back from the launch memory), RefRun (the reference's run), KernelRun (the launch
  with the result buffer named).
-/
import proofs.«136383_j28862180229417_1_alg».proof.Defs
import proofs.«136383_j28862180229417_1_alg».proof.Proof.Gen.Kernel.Frame
import proofs.«136383_j28862180229417_1_alg».proof.Proof.Gen.KernelIdeal.Frame
import proofs.«136383_j28862180229417_1_alg».proof.Proof.Gen.ReferenceIdeal
import proofs.«136383_j28862180229417_1_alg».proof.Proof.Gen.Pre_finite_inputs
import proofs.«136383_j28862180229417_1_alg».proof.Proof.KernelRun
import proofs.«136383_j28862180229417_1_alg».proof.Proof.RefRun
import proofs.«136383_j28862180229417_1_alg».proof.Proof.Chain
import Idealize.ShloMosaic.Adequacy
import Idealize.ShloMosaic.Init

noncomputable section

namespace Cert.Proof

open Idealize.ShloMosaic Idealize.SL.Sem

/-- The word-level program runs and keeps its arguments: the generated frame of its three regions. -/
theorem frame_kernel : Cert.frame_Kernel := fun m ρ _ => Cert.Kernel.Gen.frame m ρ

/-- The same for the program read at the extended reals. -/
theorem frame_kernelIdeal : Cert.frame_KernelIdeal := fun m ρ _ => Cert.KernelIdeal.Gen.frame m ρ

/-- The reference runs and keeps its arguments: its run read back, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the network of Spec.lean applied to the (agreeing) arguments: the tiled program by the
    fold of its host stretches and regions read back, the reference by its run. -/
theorem algebraic : Cert.algebraic_KernelIdeal_ReferenceIdeal := by
  intro m ρ m' ρ' _ hagree
  refine ⟨fun c => Cert.Spec.out (Cert.KernelIdeal.Chain.a0 m c) (Cert.KernelIdeal.Chain.a1 m c) (Cert.KernelIdeal.Chain.a2 m c) (Cert.KernelIdeal.Chain.a3 m c) (Cert.KernelIdeal.Chain.a4 m c) (Cert.KernelIdeal.Chain.a5 m c) (Cert.KernelIdeal.Chain.a6 m c) (Cert.KernelIdeal.Chain.a7 m c) (Cert.KernelIdeal.Chain.a8 m c) (Cert.KernelIdeal.Chain.a9 m c) (Cert.KernelIdeal.Chain.a10 m c) (Cert.KernelIdeal.Chain.a11 m c), ?_, ?_⟩
  · exact (θ_run Cert.KernelIdeal.defs _ _).mono
      (fun r h c => ⟨(h c).1.trans (Cert.KernelIdeal.Chain.result_eq m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.result_eq m' c]
    obtain ⟨e0, e1, e2, e3, e4, e5, e6, e7, e8, e9, e10, e11⟩ := hagree c
    rw [e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
